-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x3x2752 : Shape := ⟨3, ![16384, 3, 2752]⟩
abbrev S256x2752 : Shape := ⟨2, ![256, 2752]⟩
abbrev S256 : Shape := ⟨1, ![256]⟩
abbrev S256x256 : Shape := ⟨2, ![256, 256]⟩
abbrev S100x256 : Shape := ⟨2, ![100, 256]⟩
abbrev S100 : Shape := ⟨1, ![100]⟩
abbrev S_ : Shape := ⟨0, ![]⟩

class Facts : Prop where
  bcast_S_S16384x3x2752 : S_.BroadcastsInDim S16384x3x2752 (![] : Fin 0 → Fin S16384x3x2752.rank)
  reducesTo_S16384x3x2752_S_d0_1_2 : S16384x3x2752.ReducesTo [0, 1, 2] S_
  h_S_ : 0 < S_.numel
  bcast_S_S256x2752 : S_.BroadcastsInDim S256x2752 (![] : Fin 0 → Fin S256x2752.rank)
  reducesTo_S256x2752_S_d0_1 : S256x2752.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S100x256 : S_.BroadcastsInDim S100x256 (![] : Fin 0 → Fin S100x256.rank)
  reducesTo_S100x256_S_d0_1 : S100x256.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg4 : FVec F S256 .f32) (main_arg5 : FVec F S100x256 .f32) (main_arg6 : FVec F S100 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S100x256 .f32 := Host.absf main_arg5
  let main_cst_8 : FVec F S_ .f32 := constant S_ .f32 0x7F800000#32
  let main_v25 : FVec F S100x256 .f32 := broadcastInDim S100x256 ![] bcast_S_S100x256 main_cst_8
  let main_v26 : IVec S100x256 1 := cmpf .olt main_v24 main_v25
  let main_c_9 : IVec S_ 1 := constantI S_ 1 1#1
  let main_v27 : IVec S_ 1 := (fun x v => Host.reduce IntOp.andi x v reducesTo_S100x256_S_d0_1 h_S_) main_v26 main_c_9
  let main_v28 : IVec S_ 1 := andi main_v23 main_v27
  let main_v29 : FVec F S100 .f32 := Host.absf main_arg6
  let main_cst_10 : FVec F S_ .f32 := constant S_ .f32 0x7F800000#32
  let main_v30 : FVec F S100 .f32 := broadcastInDim S100 ![] bcast_S_S100 main_cst_10
  let main_v31 : IVec S100 1 := cmpf .olt main_v29 main_v30
  let main_c_11 : IVec S_ 1 := constantI S_ 1 1#1
  let main_v32 : IVec S_ 1 := (fun x v => Host.reduce IntOp.andi x v reducesTo_S100_S_d0 h_S_) main_v31 main_c_11
  let main_v33 : IVec S_ 1 := andi main_v28 main_v32
  main_v33

def fn {F : FTy → Type} [FloatOps F] (main_arg0 : FVec F S16384x3x2752 .f32) (main_arg1 : FVec F S256x2752 .f32) (main_arg2 : FVec F S256 .f32) (main_arg3 : FVec F S256x256 .f32) (main_arg4 : FVec F S256 .f32) (main_arg5 : FVec F S100x256 .f32) (main_arg6 : FVec F S100 .f32) : IVec S_ 1 :=
  let main_v0 : FVec F S16384x3x2752 .f32 := Host.absf main_arg0
  let main_cst : FVec F S_ .f32 := constant S_ .f32 0x7F800000#32
  let main_v1 : FVec F S16384x3x2752 .f32 := broadcastInDim S16384x3x2752 ![] bcast_S_S16384x3x2752 main_cst
  let main_v2 : IVec S16384x3x2752 1 := cmpf .olt main_v0 main_v1
  let main_c : IVec S_ 1 := constantI S_ 1 1#1
  let main_v3 : IVec S_ 1 := (fun x v => Host.reduce IntOp.andi x v reducesTo_S16384x3x2752_S_d0_1_2 h_S_) main_v2 main_c
  let main_v4 : FVec F S256x2752 .f32 := Host.absf main_arg1
  let main_cst_0 : FVec F S_ .f32 := constant S_ .f32 0x7F800000#32
  let main_v5 : FVec F S256x2752 .f32 := broadcastInDim S256x2752 ![] bcast_S_S256x2752 main_cst_0
  let main_v6 : IVec S256x2752 1 := cmpf .olt main_v4 main_v5
  let main_c_1 : IVec S_ 1 := constantI S_ 1 1#1
  let main_v7 : IVec S_ 1 := (fun x v => Host.reduce IntOp.andi x v reducesTo_S256x2752_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_v13 main_v16
-- ==== Kernel.lean ====
abbrev S16384x3x2752 : Shape := ⟨3, ![16384, 3, 2752]⟩
abbrev S256x2752 : Shape := ⟨2, ![256, 2752]⟩
abbrev S256 : Shape := ⟨1, ![256]⟩
abbrev S256x256 : Shape := ⟨2, ![256, 256]⟩
abbrev S100x256 : Shape := ⟨2, ![100, 256]⟩
abbrev S100 : Shape := ⟨1, ![100]⟩
abbrev S1x256 : Shape := ⟨2, ![1, 256]⟩
abbrev S1x100 : Shape := ⟨2, ![1, 100]⟩
abbrev S16384x100 : Shape := ⟨2, ![16384, 100]⟩
abbrev S256x3x2752 : Shape := ⟨3, ![256, 3, 2752]⟩
abbrev S256x100 : Shape := ⟨2, ![256, 100]⟩
abbrev S256x1x2752 : Shape := ⟨3, ![256, 1, 2752]⟩

abbrev nBuf : Space → Nat
  | .hbm => 14
  | .vmem => 10
  | .smem => 0
  | _ => 0

abbrev bufTy : (tb : Table) → Fin (tcTables nBuf tb) → BufTy
  | .hbm, ⟨0, _⟩ => ⟨S16384x3x2752, .f32⟩
  | .hbm, ⟨1, _⟩ => ⟨S256x2752, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S100x256, .f32⟩
  | .hbm, ⟨6, _⟩ => ⟨S100, .f32⟩
  | .hbm, ⟨7, _⟩ => ⟨S256x2752, .bf16⟩
  | .hbm, ⟨8, _⟩ => ⟨S256x256, .bf16⟩
  | .hbm, ⟨9, _⟩ => ⟨S100x256, .bf16⟩
  | .hbm, ⟨10, _⟩ => ⟨S1x256, .f32⟩
  | .hbm, ⟨11, _⟩ => ⟨S1x256, .f32⟩
  | .hbm, ⟨12, _⟩ => ⟨S1x100, .f32⟩
  | .hbm, ⟨13, _⟩ => ⟨S16384x100, .f32⟩
  | .local _ .vmem, ⟨0, _⟩ => ⟨S256x3x2752, .f32⟩
  | .local _ .vmem, ⟨1, _⟩ => ⟨S256x3x2752, .f32⟩
  | .local _ .vmem, ⟨2, _⟩ => ⟨S256x2752, .bf16⟩
  | .local _ .vmem, ⟨3, _⟩ => ⟨S1x256, .f32⟩
  | .local _ .vmem, ⟨4, _⟩ => ⟨S256x256, .bf16⟩
  | .local _ .vmem, ⟨5, _⟩ => ⟨S1x256, .f32⟩
  | .local _ .vmem, ⟨6, _⟩ => ⟨S100x256, .bf16⟩
  | .local _ .vmem, ⟨7, _⟩ => ⟨S1x100, .f32⟩
  | .local _ .vmem, ⟨8, _⟩ => ⟨S256x100, .f32⟩
  | .local _ .vmem, ⟨9, _⟩ => ⟨S256x100, .f32⟩
  | _, _ => ⟨S16384x3x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3x2752 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2752 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S100x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x100 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  shapeCasts_S256_S1x256 : S256.ShapeCasts S1x256
  shapeCasts_S100_S1x100 : S100.ShapeCasts S1x100
  inb_S256x2752_S256x2752_0_0 : ∀ a, (![0, 0] : Fin 2 → Nat) a + S256x2752.size a ≤ S256x2752.size a
  h_S256x2752 : 0 < S256x2752.numel
  shapeCasts_S256x2752_S256x2752 : S256x2752.ShapeCasts S256x2752
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S100x256_S100x256_0_0 : ∀ a, (![0, 0] : Fin 2 → Nat) a + S100x256.size a ≤ S100x256.size a
  h_S100x256 : 0 < S100x256.numel
  shapeCasts_S100x256_S100x256 : S100x256.ShapeCasts S100x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S256x3x2752_S256x1x2752_0_0_0 : ∀ a, (![0, 0, 0] : Fin 3 → Nat) a + S256x1x2752.size a ≤ S256x3x2752.size a
  h_S256x1x2752 : 0 < S256x1x2752.numel
  shapeCasts_S256x1x2752_S256x2752 : S256x1x2752.ShapeCasts S256x2752
  broadcasts_S1x256_S256x256 : S1x256.Broadcasts S256x256
  natLt_1_32 : 1 < 32
  broadcasts_S1x100_S256x100 : S1x100.Broadcasts S256x100
  inb_S256x3x2752_S256x1x2752_0_1_0 : ∀ a, (![0, 1, 0] : Fin 3 → Nat) a + S256x1x2752.size a ≤ S256x3x2752.size a
  inb_S256x3x2752_S256x1x2752_0_2_0 : ∀ a, (![0, 2, 0] : Fin 3 → Nat) a + S256x1x2752.size a ≤ S256x3x2752.size a
  inb_S256x100_S256x100_0_0 : ∀ a, (![0, 0] : Fin 2 → Nat) a + S256x100.size a ≤ S256x100.size a
  h_S256x100 : 0 < S256x100.numel
  dot_S256x2752_S256x2752_S256x256_1_1_0_0_n_n_wf : DotDims.WF S256x2752 S256x2752 S256x256 [1] [1] [0] [0] [] []
  dot_S256x256_S256x256_S256x256_1_1_0_0_n_n_wf : DotDims.WF S256x256 S256x256 S256x256 [1] [1] [0] [0] [] []
  dot_S256x256_S100x256_S256x100_1_1_0_0_n_n_wf : DotDims.WF S256x256 S100x256 S256x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x3x2752.size a ≤ S16384x3x2752.size a
  hwx0_0 : ∀ i : grid0.Coords, EltTy.bits .f32 = 32 ∨ (Rect.block (s := S16384x3x2752) S256x3x2752.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x2752.size a ≤ S256x2752.size a
  hwx0_1 : ∀ i : grid0.Coords, EltTy.bits .bf16 = 32 ∨ (Rect.block (s := S256x2752) S256x2752.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S100x256.size a ≤ S100x256.size a
  hwx0_5 : ∀ i : grid0.Coords, EltTy.bits .bf16 = 32 ∨ (Rect.block (s := S100x256) S100x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x100.size a ≤ S1x100.size a
  hwx0_6 : ∀ i : grid0.Coords, EltTy.bits .f32 = 32 ∨ (Rect.block (s := S1x100) S1x100.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x100.size a ≤ S16384x100.size a
  hwx0_7 : ∀ i : grid0.Coords, EltTy.bits .f32 = 32 ∨ (Rect.block (s := S16384x100) S256x100.size (cc0_transform_7 i) (hinb0_7 i)).WholeWords (EltTy.packing .f32)

variable [Facts₀]

def dot_S256x2752_S256x2752_S256x256_1_1_0_0_n_n : DotDims S256x2752 S256x2752 S256x256 where
  lhsContracting := [1]
  rhsContracting := [1]
  lhsNonContracting := [0]
  rhsNonContracting := [0]
  lhsBatch := []
  rhsBatch := []
  wf := dot_S256x2752_S256x2752_S256x256_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S100x256_S256x100_1_1_0_0_n_n : DotDims S256x256 S100x256 S256x100 where
  lhsContracting := [1]
  rhsContracting := [1]
  lhsNonContracting := [0]
  rhsNonContracting := [0]
  lhsBatch := []
  rhsBatch := []
  wf := dot_S256x256_S100x256_S256x100_1_1_0_0_n_n_wf

abbrev win0_0 : Pipeline.Window sig grid0 :=
  Pipeline.Window.ofSpec (Memref.whole main_arg0) S256x3x2752.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x2752.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S100x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S256x100.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x3x2752 : Shape := ⟨3, ![16384, 3, 2752]⟩
abbrev S256x2752 : Shape := ⟨2, ![256, 2752]⟩
abbrev S256 : Shape := ⟨1, ![256]⟩
abbrev S256x256 : Shape := ⟨2, ![256, 256]⟩
abbrev S100x256 : Shape := ⟨2, ![100, 256]⟩
abbrev S100 : Shape := ⟨1, ![100]⟩
abbrev S3x16384x2752 : Shape := ⟨3, ![3, 16384, 2752]⟩
abbrev S_ : Shape := ⟨0, ![]⟩
abbrev S16384x256 : Shape := ⟨2, ![16384, 256]⟩
abbrev S16384x100 : Shape := ⟨2, ![16384, 100]⟩
abbrev S1x16384x2752 : Shape := ⟨3, ![1, 16384, 2752]⟩
abbrev S16384x2752 : Shape := ⟨2, ![16384, 2752]⟩
abbrev S2752x256 : Shape := ⟨2, ![2752, 256]⟩
abbrev S1x256 : Shape := ⟨2, ![1, 256]⟩
abbrev S256x100 : Shape := ⟨2, ![256, 100]⟩
abbrev S1x100 : Shape := ⟨2, ![1, 100]⟩

abbrev nBuf : Space → Nat
  | .hbm => 209
  | .vmem => 0
  | .smem => 0
  | _ => 0

abbrev hbmTy0_0 (i : Nat) : BufTy := match i % 128 with
  | 0 => ⟨S16384x3x2752, .f32⟩
  | 1 => ⟨S256x2752, .f32⟩
  | 2 => ⟨S256, .f32⟩
  | 3 => ⟨S256x256, .f32⟩
  | 4 => ⟨S256, .f32⟩
  | 5 => ⟨S100x256, .f32⟩
  | 6 => ⟨S100, .f32⟩
  | 7 => ⟨S3x16384x2752, .f32⟩
  | 8 => ⟨S_, .f32⟩
  | 9 => ⟨S16384x256, .f32⟩
  | 10 => ⟨S_, .f32⟩
  | 11 => ⟨S16384x256, .f32⟩
  | 12 => ⟨S_, .f32⟩
  | 13 => ⟨S16384x100, .f32⟩
  | 14 => ⟨S1x16384x2752, .f32⟩
  | 15 => ⟨S16384x2752, .f32⟩
  | 16 => ⟨S2752x256, .f32⟩
  | 17 => ⟨S16384x256, .f32⟩
  | 18 => ⟨S1x256, .f32⟩
  | 19 => ⟨S16384x256, .f32⟩
  | 20 => ⟨S16384x256, .f32⟩
  | 21 => ⟨S16384x256, .f32⟩
  | 22 => ⟨S_, .f32⟩
  | 23 => ⟨S16384x256, .f32⟩
  | 24 => ⟨S16384x256, .f32⟩
  | 25 => ⟨S16384x256, .f32⟩
  | 26 => ⟨S_, .f32⟩
  | 27 => ⟨S16384x256, .f32⟩
  | 28 => ⟨S16384x256, .f32⟩
  | 29 => ⟨S_, .f32⟩
  | 30 => ⟨S16384x256, .f32⟩
  | 31 => ⟨S16384x256, .i1⟩
  | 32 => ⟨S16384x256, .f32⟩
  | 33 => ⟨S_, .f32⟩
  | 34 => ⟨S16384x256, .f32⟩
  | 35 => ⟨S16384x256, .f32⟩
  | 36 => ⟨S16384x256, .f32⟩
  | 37 => ⟨S256x256, .f32⟩
  | 38 => ⟨S16384x256, .f32⟩
  | 39 => ⟨S1x256, .f32⟩
  | 40 => ⟨S16384x256, .f32⟩
  | 41 => ⟨S16384x256, .f32⟩
  | 42 => ⟨S16384x256, .f32⟩
  | 43 => ⟨S_, .f32⟩
  | 44 => ⟨S16384x256, .f32⟩
  | 45 => ⟨S16384x256, .f32⟩
  | 46 => ⟨S16384x256, .f32⟩
  | 47 => ⟨S_, .f32⟩
  | 48 => ⟨S16384x256, .f32⟩
  | 49 => ⟨S16384x256, .f32⟩
  | 50 => ⟨S_, .f32⟩
  | 51 => ⟨S16384x256, .f32⟩
  | 52 => ⟨S16384x256, .i1⟩
  | 53 => ⟨S16384x256, .f32⟩
  | 54 => ⟨S_, .f32⟩
  | 55 => ⟨S16384x256, .f32⟩
  | 56 => ⟨S16384x256, .f32⟩
  | 57 => ⟨S16384x256, .f32⟩
  | 58 => ⟨S256x100, .f32⟩
  | 59 => ⟨S16384x100, .f32⟩
  | 60 => ⟨S1x100, .f32⟩
  | 61 => ⟨S16384x100, .f32⟩
  | 62 => ⟨S16384x100, .f32⟩
  | 63 => ⟨S16384x100, .f32⟩
  | 64 => ⟨S_, .f32⟩
  | 65 => ⟨S16384x100, .f32⟩
  | 66 => ⟨S16384x100, .f32⟩
  | 67 => ⟨S16384x100, .f32⟩
  | 68 => ⟨S_, .f32⟩
  | 69 => ⟨S16384x100, .f32⟩
  | 70 => ⟨S16384x100, .f32⟩
  | 71 => ⟨S_, .f32⟩
  | 72 => ⟨S16384x100, .f32⟩
  | 73 => ⟨S16384x100, .i1⟩
  | 74 => ⟨S16384x100, .f32⟩
  | 75 => ⟨S_, .f32⟩
  | 76 => ⟨S16384x100, .f32⟩
  | 77 => ⟨S16384x100, .f32⟩
  | 78 => ⟨S16384x100, .f32⟩
  | 79 => ⟨S1x16384x2752, .f32⟩
  | 80 => ⟨S16384x2752, .f32⟩
  | 81 => ⟨S2752x256, .f32⟩
  | 82 => ⟨S16384x256, .f32⟩
  | 83 => ⟨S1x256, .f32⟩
  | 84 => ⟨S16384x256, .f32⟩
  | 85 => ⟨S16384x256, .f32⟩
  | 86 => ⟨S16384x256, .f32⟩
  | 87 => ⟨S_, .f32⟩
  | 88 => ⟨S16384x256, .f32⟩
  | 89 => ⟨S16384x256, .f32⟩
  | 90 => ⟨S16384x256, .f32⟩
  | 91 => ⟨S_, .f32⟩
  | 92 => ⟨S16384x256, .f32⟩
  | 93 => ⟨S16384x256, .f32⟩
  | 94 => ⟨S_, .f32⟩
  | 95 => ⟨S16384x256, .f32⟩
  | 96 => ⟨S16384x256, .i1⟩
  | 97 => ⟨S16384x256, .f32⟩
  | 98 => ⟨S_, .f32⟩
  | 99 => ⟨S16384x256, .f32⟩
  | 100 => ⟨S16384x256, .f32⟩
  | 101 => ⟨S16384x256, .f32⟩
  | 102 => ⟨S256x256, .f32⟩
  | 103 => ⟨S16384x256, .f32⟩
  | 104 => ⟨S1x256, .f32⟩
  | 105 => ⟨S16384x256, .f32⟩
  | 106 => ⟨S16384x256, .f32⟩
  | 107 => ⟨S16384x256, .f32⟩
  | 108 => ⟨S_, .f32⟩
  | 109 => ⟨S16384x256, .f32⟩
  | 110 => ⟨S16384x256, .f32⟩
  | 111 => ⟨S16384x256, .f32⟩
  | 112 => ⟨S_, .f32⟩
  | 113 => ⟨S16384x256, .f32⟩
  | 114 => ⟨S16384x256, .f32⟩
  | 115 => ⟨S_, .f32⟩
  | 116 => ⟨S16384x256, .f32⟩
  | 117 => ⟨S16384x256, .i1⟩
  | 118 => ⟨S16384x256, .f32⟩
  | 119 => ⟨S_, .f32⟩
  | 120 => ⟨S16384x256, .f32⟩
  | 121 => ⟨S16384x256, .f32⟩
  | 122 => ⟨S16384x256, .f32⟩
  | 123 => ⟨S256x100, .f32⟩
  | 124 => ⟨S16384x100, .f32⟩
  | 125 => ⟨S1x100, .f32⟩
  | 126 => ⟨S16384x100, .f32⟩
  | 127 => ⟨S16384x100, .f32⟩
  | _ => ⟨S16384x3x2752, .f32⟩

abbrev hbmTy0_1 (i : Nat) : BufTy := match i % 128 with
  | 0 => ⟨S16384x100, .f32⟩
  | 1 => ⟨S_, .f32⟩
  | 2 => ⟨S16384x100, .f32⟩
  | 3 => ⟨S16384x100, .f32⟩
  | 4 => ⟨S16384x100, .f32⟩
  | 5 => ⟨S_, .f32⟩
  | 6 => ⟨S16384x100, .f32⟩
  | 7 => ⟨S16384x100, .f32⟩
  | 8 => ⟨S_, .f32⟩
  | 9 => ⟨S16384x100, .f32⟩
  | 10 => ⟨S16384x100, .i1⟩
  | 11 => ⟨S16384x100, .f32⟩
  | 12 => ⟨S_, .f32⟩
  | 13 => ⟨S16384x100, .f32⟩
  | 14 => ⟨S16384x100, .f32⟩
  | 15 => ⟨S16384x100, .f32⟩
  | 16 => ⟨S1x16384x2752, .f32⟩
  | 17 => ⟨S16384x2752, .f32⟩
  | 18 => ⟨S2752x256, .f32⟩
  | 19 => ⟨S16384x256, .f32⟩
  | 20 => ⟨S1x256, .f32⟩
  | 21 => ⟨S16384x256, .f32⟩
  | 22 => ⟨S16384x256, .f32⟩
  | 23 => ⟨S16384x256, .f32⟩
  | 24 => ⟨S_, .f32⟩
  | 25 => ⟨S16384x256, .f32⟩
  | 26 => ⟨S16384x256, .f32⟩
  | 27 => ⟨S16384x256, .f32⟩
  | 28 => ⟨S_, .f32⟩
  | 29 => ⟨S16384x256, .f32⟩
  | 30 => ⟨S16384x256, .f32⟩
  | 31 => ⟨S_, .f32⟩
  | 32 => ⟨S16384x256, .f32⟩
  | 33 => ⟨S16384x256, .i1⟩
  | 34 => ⟨S16384x256, .f32⟩
  | 35 => ⟨S_, .f32⟩
  | 36 => ⟨S16384x256, .f32⟩
  | 37 => ⟨S16384x256, .f32⟩
  | 38 => ⟨S16384x256, .f32⟩
  | 39 => ⟨S256x256, .f32⟩
  | 40 => ⟨S16384x256, .f32⟩
  | 41 => ⟨S1x256, .f32⟩
  | 42 => ⟨S16384x256, .f32⟩
  | 43 => ⟨S16384x256, .f32⟩
  | 44 => ⟨S16384x256, .f32⟩
  | 45 => ⟨S_, .f32⟩
  | 46 => ⟨S16384x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S_, .f32⟩
  | 53 => ⟨S16384x256, .f32⟩
  | 54 => ⟨S16384x256, .i1⟩
  | 55 => ⟨S16384x256, .f32⟩
  | 56 => ⟨S_, .f32⟩
  | 57 => ⟨S16384x256, .f32⟩
  | 58 => ⟨S16384x256, .f32⟩
  | 59 => ⟨S16384x256, .f32⟩
  | 60 => ⟨S256x100, .f32⟩
  | 61 => ⟨S16384x100, .f32⟩
  | 62 => ⟨S1x100, .f32⟩
  | 63 => ⟨S16384x100, .f32⟩
  | 64 => ⟨S16384x100, .f32⟩
  | 65 => ⟨S16384x100, .f32⟩
  | 66 => ⟨S_, .f32⟩
  | 67 => ⟨S16384x100, .f32⟩
  | 68 => ⟨S16384x100, .f32⟩
  | 69 => ⟨S16384x100, .f32⟩
  | 70 => ⟨S_, .f32⟩
  | 71 => ⟨S16384x100, .f32⟩
  | 72 => ⟨S16384x100, .f32⟩
  | 73 => ⟨S_, .f32⟩
  | 74 => ⟨S16384x100, .f32⟩
  | 75 => ⟨S16384x100, .i1⟩
  | 76 => ⟨S16384x100, .f32⟩
  | 77 => ⟨S_, .f32⟩
  | 78 => ⟨S16384x100, .f32⟩
  | 79 => ⟨S16384x100, .f32⟩
  | 80 => ⟨S16384x100, .f32⟩
  | _ => ⟨S16384x3x2752, .f32⟩

abbrev hbmTy (i : Nat) : BufTy := match i / 128 with
  | 0 => hbmTy0_0 i
  | 1 => hbmTy0_1 i
  | _ => ⟨S16384x3x2752, .f32⟩

abbrev bufTy : (tb : Table) → Fin (tcTables nBuf tb) → BufTy
  | .hbm, ⟨i, _⟩ => hbmTy i
  | _, _ => ⟨S16384x3x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_11 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_13 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_15 : Ref sig .tc := ⟨.hbm, 91, rfl⟩
abbrev main_v68 : Ref sig .tc := ⟨.hbm, 92, rfl⟩
abbrev main_v69 : Ref sig .tc := ⟨.hbm, 93, rfl⟩
abbrev main_cst_16 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_17 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_18 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_19 : Ref sig .tc := ⟨.hbm, 112, rfl⟩
abbrev main_v85 : Ref sig .tc := ⟨.hbm, 113, rfl⟩
abbrev main_v86 : Ref sig .tc := ⟨.hbm, 114, rfl⟩
abbrev main_cst_20 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_21 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_22 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_cst_23 : Ref sig .tc := ⟨.hbm, 133, rfl⟩
abbrev main_v102 : Ref sig .tc := ⟨.hbm, 134, rfl⟩
abbrev main_v103 : Ref sig .tc := ⟨.hbm, 135, rfl⟩
abbrev main_cst_24 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_26 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_cst_27 : Ref sig .tc := ⟨.hbm, 156, rfl⟩
abbrev main_v121 : Ref sig .tc := ⟨.hbm, 157, rfl⟩
abbrev main_v122 : Ref sig .tc := ⟨.hbm, 158, rfl⟩
abbrev main_cst_28 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_cst_29 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_cst_30 : Ref sig .tc := ⟨.hbm, 173, rfl⟩
abbrev main_v135 : Ref sig .tc := ⟨.hbm, 174, rfl⟩
abbrev main_v136 : Ref sig .tc := ⟨.hbm, 175, rfl⟩
abbrev main_v137 : Ref sig .tc := ⟨.hbm, 176, rfl⟩
abbrev main_cst_31 : Ref sig .tc := ⟨.hbm, 177, rfl⟩
abbrev main_v138 : Ref sig .tc := ⟨.hbm, 178, rfl⟩
abbrev main_v139 : Ref sig .tc := ⟨.hbm, 179, rfl⟩
abbrev main_cst_32 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_cst_33 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_cst_34 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_cst_35 : Ref sig .tc := ⟨.hbm, 198, rfl⟩
abbrev main_v155 : Ref sig .tc := ⟨.hbm, 199, rfl⟩
abbrev main_v156 : Ref sig .tc := ⟨.hbm, 200, rfl⟩
abbrev main_cst_36 : Ref sig .tc := ⟨.hbm, 201, rfl⟩
abbrev main_v157 : Ref sig .tc := ⟨.hbm, 202, rfl⟩
abbrev main_v158 : Ref sig .tc := ⟨.hbm, 203, rfl⟩
abbrev main_v159 : Ref sig .tc := ⟨.hbm, 204, rfl⟩
abbrev main_cst_37 : Ref sig .tc := ⟨.hbm, 205, rfl⟩
abbrev main_v160 : Ref sig .tc := ⟨.hbm, 206, rfl⟩
abbrev main_v161 : Ref sig .tc := ⟨.hbm, 207, rfl⟩
abbrev main_v162 : Ref sig .tc := ⟨.hbm, 208, rfl⟩

abbrev nD : Nat := 1
abbrev τ : Topo := Topo.v7x

variable {F : FTy → Type} [FloatOps F]

class Facts₀ : Prop where
  transposes_S16384x3x2752_S3x16384x2752_1_0_2 : S16384x3x2752.Transposes [1, 0, 2] S3x16384x2752
  bcast_S_S16384x256 : S_.BroadcastsInDim S16384x256 (![] : Fin 0 → Fin S16384x256.rank)
  bcast_S_S16384x100 : S_.BroadcastsInDim S16384x100 (![] : Fin 0 → Fin S16384x100.rank)
  slices_S3x16384x2752_S1x16384x2752_0_0_0 : S3x16384x2752.Slices ![0, 0, 0] S1x16384x2752
  shapeCasts_S1x16384x2752_S16384x2752 : S1x16384x2752.ShapeCasts S16384x2752
  transposes_S256x2752_S2752x256_1_0 : S256x2752.Transposes [1, 0] S2752x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  transposes_S256x256_S256x256_1_0 : S256x256.Transposes [1, 0] S256x256
  transposes_S100x256_S256x100_1_0 : S100x256.Transposes [1, 0] S256x100
  bcast_S100_S1x100_1 : S100.BroadcastsInDim S1x100 (![1] : Fin 1 → Fin S1x100.rank)
  bcast_S1x100_S16384x100_0_1 : S1x100.BroadcastsInDim S16384x100 (![0, 1] : Fin 2 → Fin S16384x100.rank)
  slices_S3x16384x2752_S1x16384x2752_1_0_0 : S3x16384x2752.Slices ![1, 0, 0] S1x16384x2752
  slices_S3x16384x2752_S1x16384x2752_2_0_0 : S3x16384x2752.Slices ![2, 0, 0] S1x16384x2752
  dot_S16384x2752_S2752x256_S16384x256_1_0_0_1_n_n_wf : DotDims.WF S16384x2752 S2752x256 S16384x256 [1] [0] [0] [1] [] []
  dot_S16384x256_S256x256_S16384x256_1_0_0_1_n_n_wf : DotDims.WF S16384x256 S256x256 S16384x256 [1] [0] [0] [1] [] []
  dot_S16384x256_S256x100_S16384x100_1_0_0_1_n_n_wf : DotDims.WF S16384x256 S256x100 S16384x100 [1] [0] [0] [1] [] []

variable [Facts₀]

def dot_S16384x2752_S2752x256_S16384x256_1_0_0_1_n_n : DotDims S16384x2752 S2752x256 S16384x256 where
  lhsContracting := [1]
  rhsContracting := [0]
  lhsNonContracting := [0]
  rhsNonContracting := [1]
  lhsBatch := []
  rhsBatch := []
  wf := dot_S16384x2752_S2752x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x100_S16384x100_1_0_0_1_n_n : DotDims S16384x256 S256x100 S16384x100 where
  lhsContracting := [1]
  rhsContracting := [0]
  lhsNonContracting := [0]
  rhsNonContracting := [1]
  lhsBatch := []
  rhsBatch := []
  wf := dot_S16384x256_S256x100_S16384x100_1_0_0_1_n_n_wf

class Facts : Prop extends Facts₀ where

variable [Facts]
-- ==== Proof.Snn.lean ====
/-
  The function both programs compute, for ONE sample: a three-layer spiking network of leaky integrate-and-fire
  neurons run for three time steps, over the extended reals.

  A layer with weights W (one row per output unit) and bias b turns an input vector x into the currents
  h_j = Σ_c x_c · W_{j,c} + b_j. A neuron with membrane potential v that receives the current h is charged to
  u = v + (h − v)/2, fires s = 1 when u − 1 ≥ 0 and s = 0 otherwise, and is reset to u · (1 − s): a neuron that fired
  restarts from 0. All potentials start at 0. At each of the three steps the sample's input row feeds layer 1, layer 1's
  spikes feed layer 2, and layer 2's spikes feed layer 3; the result is layer 3's spikes at the last step.

  The three constants 0, 1 and 2 are kept as the f32 words both programs print; nothing here evaluates them.
-/
import Idealize.ShloMosaic.PureOps.Ideal

noncomputable section

namespace Cert.Snn

open Idealize.ShloMosaic

/-- The f32 word 0.0. -/
def zero : EReal := Ideal.ofBits .f32 0x00000000#32
/-- The f32 word 1.0: the firing threshold. -/
def one : EReal := Ideal.ofBits .f32 0x3F800000#32
/-- The f32 word 2.0: the membrane time constant. -/
def two : EReal := Ideal.ofBits .f32 0x40000000#32

/-- Output unit j of a dense layer: the input against row j of the weights, plus the bias. -/
def dense {K J : ℕ} (x : Fin K → EReal) (W : Fin J → Fin K → EReal) (b : Fin J → EReal) (j : Fin J) : EReal :=
  (∑ c : Fin K, x c * W j c) + b j

/-- The charged potential: v + (h − v)/2. -/
def charge (v h : EReal) : EReal := v + Ideal.div (h - v) two

/-- The spike: 1 when u − 1 ≥ 0, else 0 (the comparison's bit read as a number). -/
def fire (u : EReal) : EReal := (((Ideal.cmp .oge (u - one) zero).toNat : ℝ) : EReal)

/-- The potential after a hard reset to 0: u · (1 − spike). -/
def reset (u : EReal) : EReal := u * (one - fire u)

/-- The network's parameters: three weight matrices, one row per output unit, and three bias vectors. -/
@[ext] structure Weights where
  W1 : Fin 256 → Fin 2752 → EReal
  b1 : Fin 256 → EReal
  W2 : Fin 256 → Fin 256 → EReal
  b2 : Fin 256 → EReal
  W3 : Fin 100 → Fin 256 → EReal
  b3 : Fin 100 → EReal

variable (P : Weights) (x : Fin 3 → Fin 2752 → EReal)

/-! Step 0: every potential starts at 0. The suffix names the layer (1, 2, 3) and the step (a, b, c). -/

def u1a (j : Fin 256) : EReal := charge zero (dense (x 0) P.W1 P.b1 j)
def s1a (j : Fin 256) : EReal := fire (u1a P x j)
def v1a (j : Fin 256) : EReal := reset (u1a P x j)
def u2a (j : Fin 256) : EReal := charge zero (dense (s1a P x) P.W2 P.b2 j)
def s2a (j : Fin 256) : EReal := fire (u2a P x j)
def v2a (j : Fin 256) : EReal := reset (u2a P x j)
def u3a (j : Fin 100) : EReal := charge zero (dense (s2a P x) P.W3 P.b3 j)
def v3a (j : Fin 100) : EReal := reset (u3a P x j)

/-! Step 1: each layer is charged from the potential step 0 left. -/

def u1b (j : Fin 256) : EReal := charge (v1a P x j) (dense (x 1) P.W1 P.b1 j)
def s1b (j : Fin 256) : EReal := fire (u1b P x j)
def v1b (j : Fin 256) : EReal := reset (u1b P x j)
def u2b (j : Fin 256) : EReal := charge (v2a P x j) (dense (s1b P x) P.W2 P.b2 j)
def s2b (j : Fin 256) : EReal := fire (u2b P x j)
def v2b (j : Fin 256) : EReal := reset (u2b P x j)
def u3b (j : Fin 100) : EReal := charge (v3a P x j) (dense (s2b P x) P.W3 P.b3 j)
def v3b (j : Fin 100) : EReal := reset (u3b P x j)

/-! Step 2, the last: only the spikes are needed. -/

def u1c (j : Fin 256) : EReal := charge (v1b P x j) (dense (x 2) P.W1 P.b1 j)
def s1c (j : Fin 256) : EReal := fire (u1c P x j)
def u2c (j : Fin 256) : EReal := charge (v2b P x j) (dense (s1c P x) P.W2 P.b2 j)
def s2c (j : Fin 256) : EReal := fire (u2c P x j)
def u3c (j : Fin 100) : EReal := charge (v3b P x j) (dense (s2c P x) P.W3 P.b3 j)

/-- The network's output for the sample: layer 3's spikes at the last step. -/
def out (j : Fin 100) : EReal := fire (u3c P x j)

end Cert.Snn

end
-- ==== Proof.LibDotTransposedRhs.lean ====
/-
  A matrix product whose RIGHT operand is contracted on its last axis — an m×k matrix against an n×k matrix, the
  dimension numbers `DotDims.transposedRhs m k n` — read at an index of the result: entry (a, b) is the sum over the
  contracted coordinate c of A (a, c) · B (b, c), that is, A times the transpose of B. At the ideal values, where a
  product into a zero accumulator is the bare sum; no hypothesis on the entries (only 0 + x = x is used).
  General in the three extents and in the operands' formats.
-/
import Idealize.ShloMosaic.Lib.KernelVsHost
import Idealize.ShloMosaic.Lib.ValueIdx
import Idealize.ShloMosaic.PureOps.Ideal.Laws

namespace Idealize.ShloMosaic.DotTransposedRhs

open Idealize.ShloMosaic Idealize.ShloMosaic.ValueIdx

variable {m n : Nat}

/-- The host's product of an m×k by an n×k matrix contracted on both last axes, read at (a, b): the sum over the
    contracted coordinate of the products of row a of the left operand with row b of the right one. -/
theorem dotGeneral_transposedRhs_apply {k : Nat} {φ₁ φ₂ : FTy} (prec : Option ContractPrecision)
    (A : FVec Ideal ⟨2, ![m, k]⟩ φ₁) (B : FVec Ideal ⟨2, ![n, k]⟩ φ₂) (a : Fin m) (b : Fin n) :
    Host.dotGeneral (DotDims.transposedRhs m k n) prec A B (ix2 a b) = ∑ c : Fin k, A (ix2 a c) * B (ix2 b c) := by
  show FloatOps.dotGeneral _ prec _ A B (ix2 a b) = _
  rw [Ideal.dotGeneral_apply, ← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The same product accumulated into a zero splat (a kernel's matrix unit fed a zero accumulator), read at (a, b). -/
theorem matmul_zero_transposedRhs_apply {k : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  rw [matmul_zero_eq_dotGeneral]
  exact dotGeneral_transposedRhs_apply prec A B a b

end Idealize.ShloMosaic.DotTransposedRhs
-- ==== Proof.KernelOps.lean ====
/-
  The three neuron operations as the kernel spells them on whole blocks of m samples, named, and each read at one
  entry (p, j) of the block: the charge `chargeV` (a matrix product of the input block against the weights' rows into a
  zero accumulator, the bias row laid along every row, then v + (h − v)/2), the spike `fireV` (the bit of
  "u − 1 ≥ 0" widened to a word and converted) and the reset `resetV` (u · (1 − spike)). Row p of a block is one
  sample; an entry of the result depends on that row of the inputs alone, which is what the `_of` lemmas say: from
  what the operands are ON ROW p, the result on row p. At the ideal values; generic in the number of rows and in the
  layer's widths.
-/
import proofs.«112641_j86474871538275_1_alg».proof.Proof.Snn
import proofs.«112641_j86474871538275_1_alg».proof.Proof.LibDotTransposedRhs
import Idealize.ShloMosaic.Lib.ValueLayout
import Idealize.ShloMosaic.Lib.KernelVsHost

noncomputable section

namespace Cert.Snn.KernelOps

open Idealize.ShloMosaic Idealize.ShloMosaic.ValueIdx Idealize.ShloMosaic.DotTransposedRhs Cert.Snn

variable {m K J : ℕ}

/-- A layer's charge on a block: potential v, input block lhs, weights W (one row per unit), bias row b. -/
def chargeV (d : DotDims ⟨2, ![m, K]⟩ ⟨2, ![J, K]⟩ ⟨2, ![m, J]⟩) (v : FVec Ideal ⟨2, ![m, J]⟩ .f32)
    (lhs : FVec Ideal ⟨2, ![m, K]⟩ .bf16) (W : FVec Ideal ⟨2, ![J, K]⟩ .bf16) (b : FVec Ideal ⟨2, ![1, J]⟩ .f32)
    (hb : (⟨2, ![1, J]⟩ : Shape).Broadcasts ⟨2, ![m, J]⟩) : FVec Ideal ⟨2, ![m, J]⟩ .f32 :=
  addf v (divf (subf (addf (matmul d none lhs W (constant (F := Ideal) ⟨2, ![m, J]⟩ .f32 0x00000000#32)) (broadcastTo ⟨2, ![m, J]⟩ b hb)) v)
    (broadcast ⟨2, ![m, J]⟩ (Scalar.ofBits (F := Ideal) .f32 0x40000000#32)))

/-- At sample p and unit j: the potential there, charged with the dense layer's current for row p of the input. -/
theorem chargeV_apply (d : DotDims ⟨2, ![m, K]⟩ ⟨2, ![J, K]⟩ ⟨2, ![m, J]⟩) (hd : d = DotDims.transposedRhs m K J)
    (v : FVec Ideal ⟨2, ![m, J]⟩ .f32) (lhs : FVec Ideal ⟨2, ![m, K]⟩ .bf16) (W : FVec Ideal ⟨2, ![J, K]⟩ .bf16)
    (b : FVec Ideal ⟨2, ![1, J]⟩ .f32) (hb : (⟨2, ![1, J]⟩ : Shape).Broadcasts ⟨2, ![m, J]⟩) (p : Fin m) (j : Fin J) :
    chargeV d v lhs W b hb (ix2 p j)
      = charge (v (ix2 p j)) (dense (fun c => lhs (ix2 p c)) (fun j c => W (ix2 j c)) (fun j => b (ix2 (0 : Fin 1) j)) j) := by
  subst hd
  show v (ix2 p j) + Ideal.div ((matmul (DotDims.transposedRhs m K J) none lhs W (constant ⟨2, ![m, J]⟩ .f32 0x00000000#32) (ix2 p j)
      + broadcastTo ⟨2, ![m, J]⟩ b hb (ix2 p j)) - v (ix2 p j)) (Ideal.ofBits .f32 0x40000000#32) = _
  rw [matmul_zero_transposedRhs_apply, broadcastTo_1b_ab_apply]
  rfl

/-- The same from what the operands are on row p (and what the weights and the bias are). -/
theorem chargeV_of (d : DotDims ⟨2, ![m, K]⟩ ⟨2, ![J, K]⟩ ⟨2, ![m, J]⟩) (hd : d = DotDims.transposedRhs m K J)
    (v : FVec Ideal ⟨2, ![m, J]⟩ .f32) (lhs : FVec Ideal ⟨2, ![m, K]⟩ .bf16) (W : FVec Ideal ⟨2, ![J, K]⟩ .bf16)
    (b : FVec Ideal ⟨2, ![1, J]⟩ .f32) (hb : (⟨2, ![1, J]⟩ : Shape).Broadcasts ⟨2, ![m, J]⟩) (p : Fin m) (j : Fin J)
    {V : EReal} {X : Fin K → EReal} {Wt : Fin J → Fin K → EReal} {B : Fin J → EReal}
    (hv : v (ix2 p j) = V) (hl : ∀ c, lhs (ix2 p c) = X c) (hW : ∀ j c, W (ix2 j c) = Wt j c)
    (hB : ∀ j, b (ix2 (0 : Fin 1) j) = B j) :
    chargeV d v lhs W b hb (ix2 p j) = charge V (dense X Wt B j) := by
  have e1 : (fun c => lhs (ix2 p c)) = X := funext hl
  have e2 : (fun j c => W (ix2 j c)) = Wt := funext fun j => funext (hW j)
  have e3 : (fun j => b (ix2 (0 : Fin 1) j)) = B := funext hB
  rw [chargeV_apply d hd, hv, e1, e2, e3]

variable {s : Shape}

/-- The bit of "d ≥ 0" on a block, widened to a word and converted to a float. -/
def geBitV (d : FVec Ideal s .f32) : FVec Ideal s .f32 :=
  sitofp .f32 (extui 32 (cmpf .oge d (broadcast s (Scalar.ofBits (F := Ideal) .f32 0x00000000#32))) (by decide))

/-- The spikes of a block of charged potentials. -/
def fireV (u : FVec Ideal s .f32) : FVec Ideal s .f32 :=
  geBitV (subf u (broadcast s (Scalar.ofBits (F := Ideal) .f32 0x3F800000#32)))

/-- The block of potentials after the reset. -/
def resetV (u : FVec Ideal s .f32) : FVec Ideal s .f32 :=
  mulf u (subf (broadcast s (Scalar.ofBits (F := Ideal) .f32 0x3F800000#32)) (fireV u))

/-- At an entry where d is u − 1, the bit is the spike of u. -/
theorem geBitV_of (d : FVec Ideal s .f32) (i : s.Idx) {u : EReal} (h : d i = u - one) : geBitV d i = fire u := by
  unfold geBitV
  rw [sitofp_extui_eq_uitofp]
  show (((Ideal.cmp .oge (d i) zero).toNat : ℝ) : EReal) = _
  rw [h]
  rfl

/-- The spike at an entry, from the potential there. -/
theorem fireV_of (u : FVec Ideal s .f32) (i : s.Idx) {U : EReal} (h : u i = U) : fireV u i = fire U :=
  geBitV_of _ i (by show u i - one = U - one; rw [h])

/-- The reset potential at an entry, from the potential there. -/
theorem resetV_of (u : FVec Ideal s .f32) (i : s.Idx) {U : EReal} (h : u i = U) : resetV u i = reset U := by
  show u i * (one - fireV u i) = _
  rw [fireV_of u i h, h]
  rfl

end Cert.Snn.KernelOps

end
-- ==== Proof.LibMiddleUnitAxis.lean ====
/-
  An [a, 1, b] array reshaped to [a, b] — the unit axis in the MIDDLE dropped — read at (p, c): the operand at (p, 0, c).
  (The library reads the casts that drop or add a LEADING unit axis; this is the same fact for a middle one: both
  row-major positions are p · b + c.) General in the extents and the element type.
-/
import Idealize.ShloMosaic.Lib.Pipeline.Value
import Idealize.ShloMosaic.Lib.ValueIdx

namespace Idealize.ShloMosaic.MiddleUnitAxis

open Idealize.ShloMosaic Idealize.ShloMosaic.ValueIdx

variable {α : Type}

/-- Dropping the middle unit axis keeps the outer and inner coordinates. -/
theorem shapeCast_a1b_ab_apply {a b : ℕ} (x : (⟨3, ![a, 1, b]⟩ : Shape).Idx → α)
    (h : (⟨3, ![a, 1, b]⟩ : Shape).ShapeCasts ⟨2, ![a, b]⟩) (p : Fin a) (c : Fin b) :
    shapeCast ⟨2, ![a, b]⟩ x h (ix2 p c) = x (ix3 p (0 : Fin 1) c) :=
  shapeCast_apply x h _ _ (by
    rw [Shape.rowMajor_val_three, Shape.rowMajor_val_two]
    show (p.val * 1 + 0) * b + c.val = p.val * b + c.val
    rw [Nat.mul_one, Nat.add_zero])

end Idealize.ShloMosaic.MiddleUnitAxis
-- ==== Proof.KernelBlock.lean ====
/-
  What the kernel's body leaves in its output block, entry by entry: at row p and unit j, the network's output
  (Snn.lean) for the sample in row p of the input block, under the weights and biases the body loads.

  The body works on a block of 256 samples at once. Each of its named intermediate values is one of the network's
  quantities for all 256 samples: a layer's charged potentials, its spikes (also narrowed to feed the next matrix
  product, which at the ideal values changes nothing), or its potentials after the reset. Read at row p, each is that
  quantity for sample p: a matrix product's row p uses row p of its left operand only, and everything else is
  entrywise. The lemmas below say so one named value at a time, each from what its inputs are on row p; the last one
  puts them together through the body's loads.
-/
import proofs.«112641_j86474871538275_1_alg».proof.Proof.Gen.KernelIdeal.Frame
import proofs.«112641_j86474871538275_1_alg».proof.Proof.KernelOps
import proofs.«112641_j86474871538275_1_alg».proof.Proof.LibMiddleUnitAxis
import Idealize.ShloMosaic.Lib.Pipeline.Value

noncomputable section

namespace Cert.KernelIdeal.Block

open Idealize.ShloMosaic Idealize.ShloMosaic.TcCoe Idealize.ShloMosaic.ValueIdx Idealize.ShloMosaic.MiddleUnitAxis
open Cert.KernelIdeal Cert.KernelIdeal.Gen Cert.Snn Cert.Snn.KernelOps

/-! ## The parameters as loaded: each is re-laid to its own shape, which changes nothing -/

theorem pay4_eq (v : Vec Ideal S256x2752 .bf16) : k0_pay4 v = v := shapeCast_self v _
theorem pay5_eq (v : Vec Ideal S256x256 .bf16) : k0_pay5 v = v := shapeCast_self v _
theorem pay6_eq (v : Vec Ideal S100x256 .bf16) : k0_pay6 v = v := shapeCast_self v _
theorem pay7_eq (v : Vec Ideal S1x256 .f32) : k0_pay7 v = v := shapeCast_self v _
theorem pay8_eq (v : Vec Ideal S1x256 .f32) : k0_pay8 v = v := shapeCast_self v _
theorem pay9_eq (v : Vec Ideal S1x100 .f32) : k0_pay9 v = v := shapeCast_self v _

/-- One time step's slab [256, 1, 2752] of the input block, made a matrix and narrowed: row p is the slab's row p. -/
theorem stepInput_of (v : Vec Ideal S256x1x2752 .f32) (p : Fin 256) {X : Fin 2752 → EReal}
    (hx : ∀ c, v (ix3 p (0 : Fin 1) c) = X c) (h1 : S256x1x2752.ShapeCasts S256x2752) (h2 : FTy.bits .bf16 < FTy.bits .f32)
    (c : Fin 2752) : (truncf .bf16 (shapeCast S256x2752 v h1) h2 : FVec Ideal S256x2752 .bf16) (ix2 p c) = X c := by
  rw [truncf_apply, shapeCast_a1b_ab_apply, hx]

section Stages

variable (P : Weights) (x : Fin 3 → Fin 2752 → EReal) (p : Fin 256)

/-! ## Step 0 -/

/-- Layer 1 charged from rest. -/
theorem pay10_of (v3 : Vec Ideal S256x2752 .bf16) (v9 : Vec Ideal S1x256 .f32) (v15 : Vec Ideal S256x1x2752 .f32)
    (hW : ∀ j c, v3 (ix2 j c) = P.W1 j c) (hb : ∀ j, v9 (ix2 (0 : Fin 1) j) = P.b1 j)
    (hx : ∀ c, v15 (ix3 p (0 : Fin 1) c) = x 0 c) (j : Fin 256) :
    k0_pay10 v3 v9 v15 (ix2 p j) = u1a P x j := by
  show chargeV dot_S256x2752_S256x2752_S256x256_1_1_0_0_n_n (broadcast S256x256 (Scalar.ofBits (F := Ideal) .f32 0x00000000#32))
      (truncf .bf16 (shapeCast S256x2752 v15 _) _) (k0_pay4 v3) (k0_pay7 v9) _ (ix2 p j) = _
  exact chargeV_of _ rfl _ _ _ _ _ p j rfl (stepInput_of v15 p hx _ _)
    (fun j c => by rw [pay4_eq]; exact hW j c) (fun j => by rw [pay7_eq]; exact hb j)

/-- Layer 1's spikes. -/
theorem pay11_of (v3 : Vec Ideal S256x2752 .bf16) (v9 : Vec Ideal S1x256 .f32) (v15 : Vec Ideal S256x1x2752 .f32)
    (hW : ∀ j c, v3 (ix2 j c) = P.W1 j c) (hb : ∀ j, v9 (ix2 (0 : Fin 1) j) = P.b1 j)
    (hx : ∀ c, v15 (ix3 p (0 : Fin 1) c) = x 0 c) (j : Fin 256) :
    k0_pay11 v3 v9 v15 (ix2 p j) = s1a P x j := by
  show fireV (k0_pay10 v3 v9 v15) (ix2 p j) = _
  exact fireV_of _ _ (pay10_of P x p v3 v9 v15 hW hb hx j)

/-- Layer 1 after the reset. -/
theorem pay12_of (v3 : Vec Ideal S256x2752 .bf16) (v9 : Vec Ideal S1x256 .f32) (v15 : Vec Ideal S256x1x2752 .f32)
    (hW : ∀ j c, v3 (ix2 j c) = P.W1 j c) (hb : ∀ j, v9 (ix2 (0 : Fin 1) j) = P.b1 j)
    (hx : ∀ c, v15 (ix3 p (0 : Fin 1) c) = x 0 c) (j : Fin 256) :
    k0_pay12 v3 v9 v15 (ix2 p j) = v1a P x j := by
  show resetV (k0_pay10 v3 v9 v15) (ix2 p j) = _
  exact resetV_of _ _ (pay10_of P x p v3 v9 v15 hW hb hx j)

/-- Layer 1's spikes, narrowed for the next product. -/
theorem pay13_of (v3 : Vec Ideal S256x2752 .bf16) (v9 : Vec Ideal S1x256 .f32) (v15 : Vec Ideal S256x1x2752 .f32)
    (hW : ∀ j c, v3 (ix2 j c) = P.W1 j c) (hb : ∀ j, v9 (ix2 (0 : Fin 1) j) = P.b1 j)
    (hx : ∀ c, v15 (ix3 p (0 : Fin 1) c) = x 0 c) (j : Fin 256) :
    k0_pay13 v3 v9 v15 (ix2 p j) = s1a P x j := by
  show k0_pay11 v3 v9 v15 (ix2 p j) = _
  exact pay11_of P x p v3 v9 v15 hW hb hx j

/-- Layer 2 charged from rest by layer 1's spikes. -/
theorem pay14_of (v1 : FVec Ideal S256x256 .f32) (v6 : FVec Ideal S256x256 .bf16) (v12 : FVec Ideal S1x256 .f32)
    (v34 : FVec Ideal S256x256 .bf16) (hv : ∀ j, v1 (ix2 p j) = zero) (hW : ∀ j c, v6 (ix2 j c) = P.W2 j c)
    (hb : ∀ j, v12 (ix2 (0 : Fin 1) j) = P.b2 j) (hs : ∀ c, v34 (ix2 p c) = s1a P x c) (j : Fin 256) :
    k0_pay14 v1 v6 v12 v34 (constant (F := Ideal) S256x256 .f32 0x00000000#32) (ix2 p j) = u2a P x j := by
  show chargeV dot_S256x256_S256x256_S256x256_1_1_0_0_n_n v1 v34 v6 v12 _ (ix2 p j) = _
  exact chargeV_of _ rfl _ _ _ _ _ p j (hv j) hs hW hb

/-- Layer 2's spikes. -/
theorem pay15_of (v1 : FVec Ideal S256x256 .f32) (v6 : FVec Ideal S256x256 .bf16) (v12 : FVec Ideal S1x256 .f32)
    (v34 : FVec Ideal S256x256 .bf16) (hv : ∀ j, v1 (ix2 p j) = zero) (hW : ∀ j c, v6 (ix2 j c) = P.W2 j c)
    (hb : ∀ j, v12 (ix2 (0 : Fin 1) j) = P.b2 j) (hs : ∀ c, v34 (ix2 p c) = s1a P x c) (j : Fin 256) :
    k0_pay15 v1 v6 v12 v34 (constant (F := Ideal) S256x256 .f32 0x00000000#32) (ix2 p j) = s2a P x j := by
  show fireV (k0_pay14 v1 v6 v12 v34 _) (ix2 p j) = _
  exact fireV_of _ _ (pay14_of P x p v1 v6 v12 v34 hv hW hb hs j)

/-- Layer 2 after the reset. -/
theorem pay16_of (v1 : FVec Ideal S256x256 .f32) (v6 : FVec Ideal S256x256 .bf16) (v12 : FVec Ideal S1x256 .f32)
    (v34 : FVec Ideal S256x256 .bf16) (hv : ∀ j, v1 (ix2 p j) = zero) (hW : ∀ j c, v6 (ix2 j c) = P.W2 j c)
    (hb : ∀ j, v12 (ix2 (0 : Fin 1) j) = P.b2 j) (hs : ∀ c, v34 (ix2 p c) = s1a P x c) (j : Fin 256) :
    k0_pay16 v1 v6 v12 v34 (constant (F := Ideal) S256x256 .f32 0x00000000#32) (ix2 p j) = v2a P x j := by
  show resetV (k0_pay14 v1 v6 v12 v34 _) (ix2 p j) = _
  exact resetV_of _ _ (pay14_of P x p v1 v6 v12 v34 hv hW hb hs j)

/-- Layer 3 charged from rest by layer 2's spikes, then reset. -/
theorem pay17_of (v1 : FVec Ideal S256x256 .f32) (v2 : FVec Ideal S256x100 .f32) (v6 : FVec Ideal S256x256 .bf16)
    (v8 : FVec Ideal S100x256 .bf16) (v12 : FVec Ideal S1x256 .f32) (v14 : FVec Ideal S1x100 .f32)
    (v34 : FVec Ideal S256x256 .bf16) (hv : ∀ j, v1 (ix2 p j) = zero) (hv' : ∀ j, v2 (ix2 p j) = zero)
    (hW : ∀ j c, v6 (ix2 j c) = P.W2 j c) (hb : ∀ j, v12 (ix2 (0 : Fin 1) j) = P.b2 j)
    (hW' : ∀ j c, v8 (ix2 j c) = P.W3 j c) (hb' : ∀ j, v14 (ix2 (0 : Fin 1) j) = P.b3 j)
    (hs : ∀ c, v34 (ix2 p c) = s1a P x c) (j : Fin 100) :
    k0_pay17 v1 v2 v6 v8 v12 v14 v34 (constant (F := Ideal) S256x256 .f32 0x00000000#32) (ix2 p j) = v3a P x j := by
  show resetV (chargeV dot_S256x256_S100x256_S256x100_1_1_0_0_n_n v2
      (truncf .bf16 (k0_pay15 v1 v6 v12 v34 (constant (F := Ideal) S256x256 .f32 0x00000000#32)) _) v8 v14 _) (ix2 p j) = _
  exact resetV_of _ _ (chargeV_of _ rfl _ _ _ _ _ p j (hv' j)
    (fun c => pay15_of P x p v1 v6 v12 v34 hv hW hb hs c) hW' hb')

/-! ## Step 1 -/

/-- Layer 1 charged from what step 0 left. -/
theorem pay18_of (v4 : FVec Ideal S256x2752 .bf16) (v10 : FVec Ideal S1x256 .f32) (v33 : FVec Ideal S256x256 .f32)
    (v68 : Vec Ideal S256x1x2752 .f32) (hW : ∀ j c, v4 (ix2 j c) = P.W1 j c) (hb : ∀ j, v10 (ix2 (0 : Fin 1) j) = P.b1 j)
    (hv : ∀ j, v33 (ix2 p j) = v1a P x j) (hx : ∀ c, v68 (ix3 p (0 : Fin 1) c) = x 1 c) (j : Fin 256) :
    k0_pay18 v4 v10 v33 v68 (ix2 p j) = u1b P x j := by
  show chargeV dot_S256x2752_S256x2752_S256x256_1_1_0_0_n_n v33 (truncf .bf16 (shapeCast S256x2752 v68 _) _) v4 v10 _ (ix2 p j) = _
  exact chargeV_of _ rfl _ _ _ _ _ p j (hv j) (stepInput_of v68 p hx _ _) hW hb

/-- That potential less the threshold. -/
theorem pay19_of (v4 : FVec Ideal S256x2752 .bf16) (v10 : FVec Ideal S1x256 .f32) (v33 : FVec Ideal S256x256 .f32)
    (v68 : Vec Ideal S256x1x2752 .f32) (hW : ∀ j c, v4 (ix2 j c) = P.W1 j c) (hb : ∀ j, v10 (ix2 (0 : Fin 1) j) = P.b1 j)
    (hv : ∀ j, v33 (ix2 p j) = v1a P x j) (hx : ∀ c, v68 (ix3 p (0 : Fin 1) c) = x 1 c) (j : Fin 256) :
    k0_pay19 v4 v10 v33 v68 (ix2 p j) = u1b P x j - one := by
  show k0_pay18 v4 v10 v33 v68 (ix2 p j) - one = _
  rw [pay18_of P x p v4 v10 v33 v68 hW hb hv hx j]

/-- Layer 1's spikes, from the potential less the threshold. -/
theorem pay20_of (v79 : FVec Ideal S256x256 .f32) (hd : ∀ j, v79 (ix2 p j) = u1b P x j - one) (j : Fin 256) :
    k0_pay20 v79 (ix2 p j) = s1b P x j := by
  show geBitV v79 (ix2 p j) = _
  exact geBitV_of _ _ (hd j)

/-- Layer 1 after the reset. -/
theorem pay21_of (v77 v79 : FVec Ideal S256x256 .f32) (hu : ∀ j, v77 (ix2 p j) = u1b P x j)
    (hd : ∀ j, v79 (ix2 p j) = u1b P x j - one) (j : Fin 256) : k0_pay21 v77 v79 (ix2 p j) = v1b P x j := by
  show v77 (ix2 p j) * (one - k0_pay20 v79 (ix2 p j)) = _
  rw [hu j, pay20_of P x p v79 hd j]
  rfl

/-- Layer 2 charged from what step 0 left. -/
theorem pay22_of (v6 : FVec Ideal S256x256 .bf16) (v12 : FVec Ideal S1x256 .f32) (v50 v79 : FVec Ideal S256x256 .f32)
    (hW : ∀ j c, v6 (ix2 j c) = P.W2 j c) (hb : ∀ j, v12 (ix2 (0 : Fin 1) j) = P.b2 j)
    (hv : ∀ j, v50 (ix2 p j) = v2a P x j) (hd : ∀ j, v79 (ix2 p j) = u1b P x j - one) (j : Fin 256) :
    k0_pay22 v6 v12 v50 v79 (ix2 p j) = u2b P x j := by
  show chargeV dot_S256x256_S256x256_S256x256_1_1_0_0_n_n v50 (truncf .bf16 (k0_pay20 v79) _) v6 v12 _ (ix2 p j) = _
  exact chargeV_of _ rfl _ _ _ _ _ p j (hv j) (fun c => pay20_of P x p v79 hd c) hW hb

/-- Layer 2's spikes. -/
theorem pay23_of (v6 : FVec Ideal S256x256 .bf16) (v12 : FVec Ideal S1x256 .f32) (v50 v79 : FVec Ideal S256x256 .f32)
    (hW : ∀ j c, v6 (ix2 j c) = P.W2 j c) (hb : ∀ j, v12 (ix2 (0 : Fin 1) j) = P.b2 j)
    (hv : ∀ j, v50 (ix2 p j) = v2a P x j) (hd : ∀ j, v79 (ix2 p j) = u1b P x j - one) (j : Fin 256) :
    k0_pay23 v6 v12 v50 v79 (ix2 p j) = s2b P x j := by
  show fireV (k0_pay22 v6 v12 v50 v79) (ix2 p j) = _
  exact fireV_of _ _ (pay22_of P x p v6 v12 v50 v79 hW hb hv hd j)

/-- Layer 2 after the reset. -/
theorem pay24_of (v6 : FVec Ideal S256x256 .bf16) (v12 : FVec Ideal S1x256 .f32) (v50 v79 : FVec Ideal S256x256 .f32)
    (hW : ∀ j c, v6 (ix2 j c) = P.W2 j c) (hb : ∀ j, v12 (ix2 (0 : Fin 1) j) = P.b2 j)
    (hv : ∀ j, v50 (ix2 p j) = v2a P x j) (hd : ∀ j, v79 (ix2 p j) = u1b P x j - one) (j : Fin 256) :
    k0_pay24 v6 v12 v50 v79 (ix2 p j) = v2b P x j := by
  show resetV (k0_pay22 v6 v12 v50 v79) (ix2 p j) = _
  exact resetV_of _ _ (pay22_of P x p v6 v12 v50 v79 hW hb hv hd j)

/-- Layer 3 charged from what step 0 left, then reset. -/
theorem pay25_of (v6 : FVec Ideal S256x256 .bf16) (v8 : FVec Ideal S100x256 .bf16) (v12 : FVec Ideal S1x256 .f32)
    (v14 : FVec Ideal S1x100 .f32) (v50 : FVec Ideal S256x256 .f32) (v67 : FVec Ideal S256x100 .f32)
    (v79 : FVec Ideal S256x256 .f32) (hW : ∀ j c, v6 (ix2 j c) = P.W2 j c) (hb : ∀ j, v12 (ix2 (0 : Fin 1) j) = P.b2 j)
    (hW' : ∀ j c, v8 (ix2 j c) = P.W3 j c) (hb' : ∀ j, v14 (ix2 (0 : Fin 1) j) = P.b3 j)
    (hv : ∀ j, v50 (ix2 p j) = v2a P x j) (hv' : ∀ j, v67 (ix2 p j) = v3a P x j)
    (hd : ∀ j, v79 (ix2 p j) = u1b P x j - one) (j : Fin 100) :
    k0_pay25 v6 v8 v12 v14 v50 v67 v79 (ix2 p j) = v3b P x j := by
  show resetV (chargeV dot_S256x256_S100x256_S256x100_1_1_0_0_n_n v67 (truncf .bf16 (k0_pay23 v6 v12 v50 v79) _) v8 v14 _) (ix2 p j) = _
  exact resetV_of _ _ (chargeV_of _ rfl _ _ _ _ _ p j (hv' j)
    (fun c => pay23_of P x p v6 v12 v50 v79 hW hb hv hd c) hW' hb')

/-! ## Step 2 -/

/-- The last step's input rows. -/
theorem pay26_of (v121 : Vec Ideal S256x1x2752 .f32) (hx : ∀ c, v121 (ix3 p (0 : Fin 1) c) = x 2 c) (c : Fin 2752) :
    k0_pay26 v121 (ix2 p c) = x 2 c := by
  show (truncf .bf16 (shapeCast S256x2752 v121 _) _ : FVec Ideal S256x2752 .bf16) (ix2 p c) = _
  exact stepInput_of v121 p hx _ _ c

/-- The three layers' last step, down to layer 3's spikes: the value the body stores. -/
theorem pay1_of (v4 : FVec Ideal S256x2752 .bf16) (v6 : FVec Ideal S256x256 .bf16) (v8 : FVec Ideal S100x256 .bf16)
    (v10 v12 : FVec Ideal S1x256 .f32) (v14 : FVec Ideal S1x100 .f32) (v86 v103 : FVec Ideal S256x256 .f32)
    (v120 : FVec Ideal S256x100 .f32) (v123 : FVec Ideal S256x2752 .bf16)
    (hW1 : ∀ j c, v4 (ix2 j c) = P.W1 j c) (hb1 : ∀ j, v10 (ix2 (0 : Fin 1) j) = P.b1 j)
    (hW2 : ∀ j c, v6 (ix2 j c) = P.W2 j c) (hb2 : ∀ j, v12 (ix2 (0 : Fin 1) j) = P.b2 j)
    (hW3 : ∀ j c, v8 (ix2 j c) = P.W3 j c) (hb3 : ∀ j, v14 (ix2 (0 : Fin 1) j) = P.b3 j)
    (hv1 : ∀ j, v86 (ix2 p j) = v1b P x j) (hv2 : ∀ j, v103 (ix2 p j) = v2b P x j)
    (hv3 : ∀ j, v120 (ix2 p j) = v3b P x j) (hx : ∀ c, v123 (ix2 p c) = x 2 c) (j : Fin 100) :
    k0_pay1 v4 v6 v8 v10 v12 v14 v86 v103 v120 v123 (constant (F := Ideal) S256x256 .f32 0x00000000#32) (ix2 p j) = out P x j := by
  show fireV (chargeV dot_S256x256_S100x256_S256x100_1_1_0_0_n_n v120
      (truncf .bf16 (fireV (chargeV dot_S256x256_S256x256_S256x256_1_1_0_0_n_n v103
        (truncf .bf16 (fireV (chargeV dot_S256x2752_S256x2752_S256x256_1_1_0_0_n_n v86 v123 v4 v10 _)) _) v6 v12 _)) _)
      v8 v14 _) (ix2 p j) = _
  have h1 : ∀ c, chargeV dot_S256x2752_S256x2752_S256x256_1_1_0_0_n_n v86 v123 v4 v10 Facts₀.broadcasts_S1x256_S256x256 (ix2 p c) = u1c P x c :=
    fun c => chargeV_of _ rfl _ _ _ _ _ p c (hv1 c) hx hW1 hb1
  have h2 : ∀ c, chargeV dot_S256x256_S256x256_S256x256_1_1_0_0_n_n v103
      (truncf .bf16 (fireV (chargeV dot_S256x2752_S256x2752_S256x256_1_1_0_0_n_n v86 v123 v4 v10 Facts₀.broadcasts_S1x256_S256x256)) Facts₀.bitsLt_bf16_f32)
      v6 v12 Facts₀.broadcasts_S1x256_S256x256 (ix2 p c) = u2c P x c :=
    fun c => chargeV_of _ rfl _ _ _ _ _ p c (hv2 c) (fun c' => fireV_of _ _ (h1 c')) hW2 hb2
  exact fireV_of _ _ (chargeV_of _ rfl _ _ _ _ _ p j (hv3 j) (fun c => fireV_of _ _ (h2 c)) hW3 hb3)

end Stages

/-! ## The block's run: the loads, and the stored entry -/

/-- The parameters a block's run loads: the weight blocks' rows and the bias rows. -/
def wts (x1 : Vec Ideal S256x2752 .bf16) (x2 : Vec Ideal S1x256 .f32) (x3 : Vec Ideal S256x256 .bf16)
    (x4 : Vec Ideal S1x256 .f32) (x5 : Vec Ideal S100x256 .bf16) (x6 : Vec Ideal S1x100 .f32) : Weights where
  W1 j c := x1 (ix2 j c)
  b1 j := x2 (ix2 (0 : Fin 1) j)
  W2 j c := x3 (ix2 j c)
  b2 j := x4 (ix2 (0 : Fin 1) j)
  W3 j c := x5 (ix2 j c)
  b3 j := x6 (ix2 (0 : Fin 1) j)

/-- Sample p of the input block: its input row at each of the three steps. -/
def sample (x0 : Vec Ideal S256x3x2752 .f32) (p : Fin 256) : Fin 3 → Fin 2752 → EReal := fun t c => x0 (ix3 p t c)

theorem hz2 : (![0, 0] : Fin 2 → Nat) = fun _ => 0 := funext fun a => by fin_cases a <;> rfl

/-- The load of time step o's slab out of the input block [256, 3, 2752]: at (p, 0, c) the block at (p, o, c). -/
theorem ld_step (x0 : Vec Ideal S256x3x2752 .f32) (o : ℕ) (ho : o < 3)
    (inb : ∀ a, (![0, o, 0] : Fin 3 → Nat) a + S256x1x2752.size a ≤ S256x3x2752.size a) (p : Fin 256) (c : Fin 2752) :
    View.ld x0 (Rect.unit (s := S256x3x2752) ![0, o, 0] S256x1x2752.size inb) (ix3 p (0 : Fin 1) c) = x0 (ix3 p (⟨o, ho⟩ : Fin 3) c) := by
  show x0 ((Rect.unit (s := S256x3x2752) ![0, o, 0] S256x1x2752.size inb).emb (ix3 p (0 : Fin 1) c)) = _
  congr 1
  funext a
  apply Fin.ext
  rw [Rect.emb_apply]
  match a with
  | ⟨0, _⟩ => show 0 + 1 * p.val = p.val; omega
  | ⟨1, _⟩ => show o + 1 * 0 = o; omega
  | ⟨2, _⟩ => show 0 + 1 * c.val = c.val; omega

/-- THE STORED ENTRY: what the body leaves in its output block at row p and unit j is the network's output for sample
    p of the input block. -/
theorem out_block (x0 : Vec Ideal S256x3x2752 .f32) (x1 : Vec Ideal S256x2752 .bf16) (x2 : Vec Ideal S1x256 .f32)
    (x3 : Vec Ideal S256x256 .bf16) (x4 : Vec Ideal S1x256 .f32) (x5 : Vec Ideal S100x256 .bf16) (x6 : Vec Ideal S1x100 .f32)
    (p : Fin 256) (j : Fin 100) :
    out0_7 x0 x1 x2 x3 x4 x5 x6 (ix2 p j) = out (wts x1 x2 x3 x4 x5 x6) (sample x0 p) j := by
  have l1 : View.ld x1 r0_0 = x1 := View.ld_unit_zero (S := S256x2752) hz2 _ x1
  have l3 : View.ld x3 r0_1 = x3 := View.ld_unit_zero (S := S256x256) hz2 _ x3
  have l5 : View.ld x5 r0_2 = x5 := View.ld_unit_zero (S := S100x256) hz2 _ x5
  have l2 : View.ld x2 r0_3 = x2 := View.ld_unit_zero (S := S1x256) hz2 _ x2
  have l4 : View.ld x4 r0_3 = x4 := View.ld_unit_zero (S := S1x256) hz2 _ x4
  have l6 : View.ld x6 r0_4 = x6 := View.ld_unit_zero (S := S1x100) hz2 _ x6
  have hx0 : ∀ c, View.ld x0 r0_5 (ix3 p (0 : Fin 1) c) = sample x0 p 0 c := fun c => ld_step x0 0 (by decide) _ p c
  have hx1 : ∀ c, View.ld x0 r0_6 (ix3 p (0 : Fin 1) c) = sample x0 p 1 c := fun c => ld_step x0 1 (by decide) _ p c
  have hx2 : ∀ c, View.ld x0 r0_7 (ix3 p (0 : Fin 1) c) = sample x0 p 2 c := fun c => ld_step x0 2 (by decide) _ p c
  unfold out0_7
  rw [View.canon_unit_zero hz2, l1, l2, l3, l4, l5, l6]
  -- the parameters
  have hW1 : ∀ j c, k0_pay4 x1 (ix2 j c) = (wts x1 x2 x3 x4 x5 x6).W1 j c := fun j c => by rw [pay4_eq]; rfl
  have hW2 : ∀ j c, k0_pay5 x3 (ix2 j c) = (wts x1 x2 x3 x4 x5 x6).W2 j c := fun j c => by rw [pay5_eq]; rfl
  have hW3 : ∀ j c, k0_pay6 x5 (ix2 j c) = (wts x1 x2 x3 x4 x5 x6).W3 j c := fun j c => by rw [pay6_eq]; rfl
  have hb1 : ∀ j, k0_pay7 x2 (ix2 (0 : Fin 1) j) = (wts x1 x2 x3 x4 x5 x6).b1 j := fun j => by rw [pay7_eq]; rfl
  have hb2 : ∀ j, k0_pay8 x4 (ix2 (0 : Fin 1) j) = (wts x1 x2 x3 x4 x5 x6).b2 j := fun j => by rw [pay8_eq]; rfl
  have hb3 : ∀ j, k0_pay9 x6 (ix2 (0 : Fin 1) j) = (wts x1 x2 x3 x4 x5 x6).b3 j := fun j => by rw [pay9_eq]; rfl
  have hz : ∀ j : Fin 256, k0_pay2 (F := Ideal) (ix2 p j) = zero := fun _ => rfl
  have hz' : ∀ j : Fin 100, k0_pay3 (F := Ideal) (ix2 p j) = zero := fun _ => rfl
  -- step 0
  have a12 := pay12_of (wts x1 x2 x3 x4 x5 x6) (sample x0 p) p x1 x2 (View.ld x0 r0_5) (fun _ _ => rfl) (fun _ => rfl) hx0
  have a13 := pay13_of (wts x1 x2 x3 x4 x5 x6) (sample x0 p) p x1 x2 (View.ld x0 r0_5) (fun _ _ => rfl) (fun _ => rfl) hx0
  have a16 := pay16_of (wts x1 x2 x3 x4 x5 x6) (sample x0 p) p _ _ _ _ hz hW2 hb2 a13
  have a17 := pay17_of (wts x1 x2 x3 x4 x5 x6) (sample x0 p) p _ _ _ _ _ _ _ hz hz' hW2 hb2 hW3 hb3 a13
  -- step 1
  have a18 := pay18_of (wts x1 x2 x3 x4 x5 x6) (sample x0 p) p _ _ _ (View.ld x0 r0_6) hW1 hb1 a12 hx1
  have a19 := pay19_of (wts x1 x2 x3 x4 x5 x6) (sample x0 p) p _ _ _ (View.ld x0 r0_6) hW1 hb1 a12 hx1
  have a21 := pay21_of (wts x1 x2 x3 x4 x5 x6) (sample x0 p) p _ _ a18 a19
  have a24 := pay24_of (wts x1 x2 x3 x4 x5 x6) (sample x0 p) p _ _ _ _ hW2 hb2 a16 a19
  have a25 := pay25_of (wts x1 x2 x3 x4 x5 x6) (sample x0 p) p _ _ _ _ _ _ _ hW2 hb2 hW3 hb3 a16 a17 a19
  -- step 2
  have a26 := pay26_of (sample x0 p) p (View.ld x0 r0_7) hx2
  exact pay1_of (wts x1 x2 x3 x4 x5 x6) (sample x0 p) p _ _ _ _ _ _ _ _ _ _ hW1 hb1 hW2 hb2 hW3 hb3 a21 a24 a25 a26 j

end Cert.KernelIdeal.Block

end
-- ==== Proof.SnnBatch.lean ====
/-
  The network (Snn.lean) over a whole batch: the argument arrays as both programs receive them — the samples
  [16384, 3, 2752], three weight matrices with one row per output unit, three bias vectors — and the batch's result
  [16384, 100], whose entry (r, j) is output unit j of the network run on sample r.
-/
import proofs.«112641_j86474871538275_1_alg».proof.Proof.Snn
import Idealize.ShloMosaic.Lib.ValueIdx

noncomputable section

namespace Cert.Snn

open Idealize.ShloMosaic Idealize.ShloMosaic.ValueIdx

/-- The network's parameters read off the argument arrays. -/
def wtsOf (W1 : (⟨2, ![256, 2752]⟩ : Shape).Idx → EReal) (b1 : (⟨1, ![256]⟩ : Shape).Idx → EReal)
    (W2 : (⟨2, ![256, 256]⟩ : Shape).Idx → EReal) (b2 : (⟨1, ![256]⟩ : Shape).Idx → EReal)
    (W3 : (⟨2, ![100, 256]⟩ : Shape).Idx → EReal) (b3 : (⟨1, ![100]⟩ : Shape).Idx → EReal) : Weights where
  W1 j c := W1 (ix2 j c)
  b1 j := b1 (ix1 j)
  W2 j c := W2 (ix2 j c)
  b2 j := b2 (ix1 j)
  W3 j c := W3 (ix2 j c)
  b3 j := b3 (ix1 j)

/-- Sample r of the batch: its input row at each of the three steps. -/
def sampleOf (X : (⟨3, ![16384, 3, 2752]⟩ : Shape).Idx → EReal) (r : Fin 16384) : Fin 3 → Fin 2752 → EReal :=
  fun t c => X (ix3 r t c)

/-- The batch's result: entry (r, j) is output unit j for sample r. -/
def batch (X : (⟨3, ![16384, 3, 2752]⟩ : Shape).Idx → EReal) (W1 : (⟨2, ![256, 2752]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![100, 256]⟩ : Shape).Idx → EReal)
    (b3 : (⟨1, ![100]⟩ : Shape).Idx → EReal) : (⟨2, ![16384, 100]⟩ : Shape).Idx → EReal :=
  fun i => out (wtsOf W1 b1 W2 b2 W3 b3) (sampleOf X (i 0)) (i 1)

end Cert.Snn

end
-- ==== Proof.KernelArray.lean ====
/-
  From the kernel's blocks to its result array. The grid has 64 points; at point t the body sees rows 256·t … 256·t + 255
  of the samples' array as its input block and the WHOLE of each parameter array (the three weight matrices, which
  the program has converted to a narrower format before the launch — the identity at the ideal values — and the three
  bias vectors, reshaped to one-row matrices), and what it stores is written back to rows 256·t … 256·t + 255 of the
  result. The stored entry (p, j) is the network's output for sample p of the block (KernelBlock.lean), so block t of
  the result is the batch function's rows 256·t …; the 64 blocks tile the 16384 rows, and the result array is the
  batch function of the arguments.
-/
import proofs.«112641_j86474871538275_1_alg».proof.Proof.Gen.KernelIdeal.Value
import proofs.«112641_j86474871538275_1_alg».proof.Proof.KernelBlock
import proofs.«112641_j86474871538275_1_alg».proof.Proof.SnnBatch
import Idealize.ShloMosaic.Lib.StableHlo.Run
import Idealize.ShloMosaic.Lib.ValueLayout

noncomputable section

namespace Cert.KernelIdeal.Batch

open Idealize.ShloMosaic Idealize.ShloMosaic.TcCoe Idealize.ShloMosaic.ValueIdx Idealize.SL.Sem
open Cert.KernelIdeal Cert.KernelIdeal.Gen Cert.KernelIdeal.Value Cert.KernelIdeal.Block Cert.Snn
open Idealize.ShloMosaic.Pipeline (Dat)

variable (m : (ℓ : Loc nD τ sig) → Buf (Elt Ideal) ℓ) (ρ : Dev nD → PrngReg)

/-- The batch function of the kernel's arguments as launched. -/
def result (c : Dev nD) : S16384x100.Idx → EReal :=
  batch (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## The parameter arrays as the region finds them: converted or reshaped copies of the arguments -/

theorem V_W1 (c : Dev nD) (i : S256x2752.Idx) : (V m c main_v0 : S256x2752.Idx → EReal) i = (m ((c : Thread nD τ).loc main_arg1)) i := by
  have e : (V m c main_v0 : S256x2752.Idx → EReal) = (truncf (F := Ideal) (s := S256x2752) (φ := .f32) .bf16 (m ((c : Thread nD τ).loc main_arg1)) Facts₀.bitsLt_bf16_f32 : S256x2752.Idx → EReal) := by
    dsimp only [Gen.V, Gen.hostOps0]; after_results
  rw [e]; rfl

theorem V_W2 (c : Dev nD) (i : S256x256.Idx) : (V m c main_v1 : S256x256.Idx → EReal) i = (m ((c : Thread nD τ).loc main_arg3)) i := by
  have e : (V m c main_v1 : S256x256.Idx → EReal) = (truncf (F := Ideal) (s := S256x256) (φ := .f32) .bf16 (m ((c : Thread nD τ).loc main_arg3)) Facts₀.bitsLt_bf16_f32 : S256x256.Idx → EReal) := by
    dsimp only [Gen.V, Gen.hostOps0]; after_results
  rw [e]; rfl

theorem V_W3 (c : Dev nD) (i : S100x256.Idx) : (V m c main_v2 : S100x256.Idx → EReal) i = (m ((c : Thread nD τ).loc main_arg5)) i := by
  have e : (V m c main_v2 : S100x256.Idx → EReal) = (truncf (F := Ideal) (s := S100x256) (φ := .f32) .bf16 (m ((c : Thread nD τ).loc main_arg5)) Facts₀.bitsLt_bf16_f32 : S100x256.Idx → EReal) := by
    dsimp only [Gen.V, Gen.hostOps0]; after_results
  rw [e]; rfl

theorem V_b1 (c : Dev nD) (j : Fin 256) : (V m c main_v3 : S1x256.Idx → EReal) (ix2 (0 : Fin 1) j) = (m ((c : Thread nD τ).loc main_arg2)) (ix1 j) := by
  have e : (V m c main_v3 : S1x256.Idx → EReal) = shapeCast S1x256 ((m ((c : Thread nD τ).loc main_arg2)) : S256.Idx → EReal) Facts₀.shapeCasts_S256_S1x256 := by
    dsimp only [Gen.V, Gen.hostOps0]; after_results; rfl
  rw [e, shapeCast_a_1a_apply]

theorem V_b2 (c : Dev nD) (j : Fin 256) : (V m c main_v4 : S1x256.Idx → EReal) (ix2 (0 : Fin 1) j) = (m ((c : Thread nD τ).loc main_arg4)) (ix1 j) := by
  have e : (V m c main_v4 : S1x256.Idx → EReal) = shapeCast S1x256 ((m ((c : Thread nD τ).loc main_arg4)) : S256.Idx → EReal) Facts₀.shapeCasts_S256_S1x256 := by
    dsimp only [Gen.V, Gen.hostOps0]; after_results; rfl
  rw [e, shapeCast_a_1a_apply]

theorem V_b3 (c : Dev nD) (j : Fin 100) : (V m c main_v5 : S1x100.Idx → EReal) (ix2 (0 : Fin 1) j) = (m ((c : Thread nD τ).loc main_arg6)) (ix1 j) := by
  have e : (V m c main_v5 : S1x100.Idx → EReal) = shapeCast S1x100 ((m ((c : Thread nD τ).loc main_arg6)) : S100.Idx → EReal) Facts₀.shapeCasts_S100_S1x100 := by
    dsimp only [Gen.V, Gen.hostOps0]; after_results; rfl
  rw [e, shapeCast_a_1a_apply]

/-! ## The index maps, decided over the 64 grid points -/

/-- The samples' window and the result's window move down the rows with the point; every parameter window stays at
    its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each window's block at a point, read at an index -/

/-- The samples' block at point t is rows 256·t … 256·t + 255 of the samples' array. -/
theorem iblk0_apply (c : Dev nD) (t : Fin cfg0.N) (x : S256x3x2752.Idx) (k : S16384x3x2752.Idx)
    (hk0 : (k 0).val = 256 * t.val + (x 0).val) (hk1 : (k 1).val = (x 1).val) (hk2 : (k 2).val = (x 2).val) :
    (iblk m c 0 t : Vec Ideal S256x3x2752 .f32) x = ((m ((c : Thread nD τ).loc main_arg0)) : S16384x3x2752.Idx → EReal) k := by
  obtain ⟨h0, h1, h2, -⟩ := idx_facts t
  unfold iblk
  rw [View.read_apply]
  show V m c main_arg0 _ = (m ((c : Thread nD τ).loc main_arg0)) _
  rw [V_main_arg0]
  congr 1
  funext a
  apply Fin.ext
  match a with
  | ⟨0, _⟩ => show win0_0.index t 0 * 256 + 1 * (x 0).val = (k 0).val; rw [h0, hk0]; omega
  | ⟨1, _⟩ => show win0_0.index t 1 * 3 + 1 * (x 1).val = (k 1).val; rw [h1, hk1]; omega
  | ⟨2, _⟩ => show win0_0.index t 2 * 2752 + 1 * (x 2).val = (k 2).val; rw [h2, hk2]; omega

/-- Layer 1's weights: the one block is the whole array. -/
theorem iblk1_apply (c : Dev nD) (t : Fin cfg0.N) (x k : S256x2752.Idx) (hk0 : (k 0).val = (x 0).val) (hk1 : (k 1).val = (x 1).val) :
    (iblk m c 1 t : Vec Ideal S256x2752 .bf16) x = (V m c main_v0 : S256x2752.Idx → EReal) k := by
  have hi : win0_1.index t (0 : Fin 2) = 0 ∧ win0_1.index t (1 : Fin 2) = 0 := by
    obtain ⟨-, -, -, h10, h11, h20, h21, h30, h31, h40, h41, h50, h51, h60, h61, -, -⟩ := idx_facts t
    exact ⟨h10, h11⟩
  unfold iblk
  rw [View.read_apply]
  show V m c main_v0 _ = V m c main_v0 _
  congr 1
  funext a
  apply Fin.ext
  match a with
  | ⟨0, _⟩ => show win0_1.index t 0 * 256 + 1 * (x 0).val = (k 0).val; rw [hi.1, hk0]; omega
  | ⟨1, _⟩ => show win0_1.index t 1 * 2752 + 1 * (x 1).val = (k 1).val; rw [hi.2, hk1]; omega

/-- Layer 1's bias row: the one block is the whole array. -/
theorem iblk2_apply (c : Dev nD) (t : Fin cfg0.N) (x k : S1x256.Idx) (hk0 : (k 0).val = (x 0).val) (hk1 : (k 1).val = (x 1).val) :
    (iblk m c 2 t : Vec Ideal S1x256 .f32) x = (V m c main_v3 : S1x256.Idx → EReal) k := by
  have hi : win0_2.index t (0 : Fin 2) = 0 ∧ win0_2.index t (1 : Fin 2) = 0 := by
    obtain ⟨-, -, -, h10, h11, h20, h21, h30, h31, h40, h41, h50, h51, h60, h61, -, -⟩ := idx_facts t
    exact ⟨h20, h21⟩
  unfold iblk
  rw [View.read_apply]
  show V m c main_v3 _ = V m c main_v3 _
  congr 1
  funext a
  apply Fin.ext
  match a with
  | ⟨0, _⟩ => show win0_2.index t 0 * 1 + 1 * (x 0).val = (k 0).val; rw [hi.1, hk0]; omega
  | ⟨1, _⟩ => show win0_2.index t 1 * 256 + 1 * (x 1).val = (k 1).val; rw [hi.2, hk1]; omega

/-- Layer 2's weights: the one block is the whole array. -/
theorem iblk3_apply (c : Dev nD) (t : Fin cfg0.N) (x k : S256x256.Idx) (hk0 : (k 0).val = (x 0).val) (hk1 : (k 1).val = (x 1).val) :
    (iblk m c 3 t : Vec Ideal S256x256 .bf16) x = (V m c main_v1 : S256x256.Idx → EReal) k := by
  have hi : win0_3.index t (0 : Fin 2) = 0 ∧ win0_3.index t (1 : Fin 2) = 0 := by
    obtain ⟨-, -, -, h10, h11, h20, h21, h30, h31, h40, h41, h50, h51, h60, h61, -, -⟩ := idx_facts t
    exact ⟨h30, h31⟩
  unfold iblk
  rw [View.read_apply]
  show V m c main_v1 _ = V m c main_v1 _
  congr 1
  funext a
  apply Fin.ext
  match a with
  | ⟨0, _⟩ => show win0_3.index t 0 * 256 + 1 * (x 0).val = (k 0).val; rw [hi.1, hk0]; omega
  | ⟨1, _⟩ => show win0_3.index t 1 * 256 + 1 * (x 1).val = (k 1).val; rw [hi.2, hk1]; omega

/-- Layer 2's bias row: the one block is the whole array. -/
theorem iblk4_apply (c : Dev nD) (t : Fin cfg0.N) (x k : S1x256.Idx) (hk0 : (k 0).val = (x 0).val) (hk1 : (k 1).val = (x 1).val) :
    (iblk m c 4 t : Vec Ideal S1x256 .f32) x = (V m c main_v4 : S1x256.Idx → EReal) k := by
  have hi : win0_4.index t (0 : Fin 2) = 0 ∧ win0_4.index t (1 : Fin 2) = 0 := by
    obtain ⟨-, -, -, h10, h11, h20, h21, h30, h31, h40, h41, h50, h51, h60, h61, -, -⟩ := idx_facts t
    exact ⟨h40, h41⟩
  unfold iblk
  rw [View.read_apply]
  show V m c main_v4 _ = V m c main_v4 _
  congr 1
  funext a
  apply Fin.ext
  match a with
  | ⟨0, _⟩ => show win0_4.index t 0 * 1 + 1 * (x 0).val = (k 0).val; rw [hi.1, hk0]; omega
  | ⟨1, _⟩ => show win0_4.index t 1 * 256 + 1 * (x 1).val = (k 1).val; rw [hi.2, hk1]; omega

/-- Layer 3's weights: the one block is the whole array. -/
theorem iblk5_apply (c : Dev nD) (t : Fin cfg0.N) (x k : S100x256.Idx) (hk0 : (k 0).val = (x 0).val) (hk1 : (k 1).val = (x 1).val) :
    (iblk m c 5 t : Vec Ideal S100x256 .bf16) x = (V m c main_v2 : S100x256.Idx → EReal) k := by
  have hi : win0_5.index t (0 : Fin 2) = 0 ∧ win0_5.index t (1 : Fin 2) = 0 := by
    obtain ⟨-, -, -, h10, h11, h20, h21, h30, h31, h40, h41, h50, h51, h60, h61, -, -⟩ := idx_facts t
    exact ⟨h50, h51⟩
  unfold iblk
  rw [View.read_apply]
  show V m c main_v2 _ = V m c main_v2 _
  congr 1
  funext a
  apply Fin.ext
  match a with
  | ⟨0, _⟩ => show win0_5.index t 0 * 100 + 1 * (x 0).val = (k 0).val; rw [hi.1, hk0]; omega
  | ⟨1, _⟩ => show win0_5.index t 1 * 256 + 1 * (x 1).val = (k 1).val; rw [hi.2, hk1]; omega

/-- Layer 3's bias row: the one block is the whole array. -/
theorem iblk6_apply (c : Dev nD) (t : Fin cfg0.N) (x k : S1x100.Idx) (hk0 : (k 0).val = (x 0).val) (hk1 : (k 1).val = (x 1).val) :
    (iblk m c 6 t : Vec Ideal S1x100 .f32) x = (V m c main_v5 : S1x100.Idx → EReal) k := by
  have hi : win0_6.index t (0 : Fin 2) = 0 ∧ win0_6.index t (1 : Fin 2) = 0 := by
    obtain ⟨-, -, -, h10, h11, h20, h21, h30, h31, h40, h41, h50, h51, h60, h61, -, -⟩ := idx_facts t
    exact ⟨h60, h61⟩
  unfold iblk
  rw [View.read_apply]
  show V m c main_v5 _ = V m c main_v5 _
  congr 1
  funext a
  apply Fin.ext
  match a with
  | ⟨0, _⟩ => show win0_6.index t 0 * 1 + 1 * (x 0).val = (k 0).val; rw [hi.1, hk0]; omega
  | ⟨1, _⟩ => show win0_6.index t 1 * 100 + 1 * (x 1).val = (k 1).val; rw [hi.2, hk1]; omega

/-- The parameters every point's body loads are the arguments'. -/
theorem wts_blocks (c : Dev nD) (t : Fin cfg0.N) :
    wts (iblk m c 1 t) (iblk m c 2 t) (iblk m c 3 t) (iblk m c 4 t) (iblk m c 5 t) (iblk m c 6 t)
      = wtsOf (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  apply Weights.ext
  · funext j k; exact (iblk1_apply m c t (ix2 j k) (ix2 j k) rfl rfl).trans (V_W1 m c _)
  · funext j; exact (iblk2_apply m c t (ix2 (0 : Fin 1) j) (ix2 (0 : Fin 1) j) rfl rfl).trans (V_b1 m c j)
  · funext j k; exact (iblk3_apply m c t (ix2 j k) (ix2 j k) rfl rfl).trans (V_W2 m c _)
  · funext j; exact (iblk4_apply m c t (ix2 (0 : Fin 1) j) (ix2 (0 : Fin 1) j) rfl rfl).trans (V_b2 m c j)
  · funext j k; exact (iblk5_apply m c t (ix2 j k) (ix2 j k) rfl rfl).trans (V_W3 m c _)
  · funext j; exact (iblk6_apply m c t (ix2 (0 : Fin 1) j) (ix2 (0 : Fin 1) j) rfl rfl).trans (V_b3 m c j)

/-- Row 256·t + p is a row of the batch. -/
theorem row_lt (t : Fin cfg0.N) (p : Fin 256) : 256 * t.val + p.val < 16384 := by
  have ht := t.isLt
  have hN : cfg0.N = 64 := N_0
  have hp := p.isLt
  omega

/-- Sample p of point t's input block is sample 256·t + p of the batch. -/
theorem sample_block (c : Dev nD) (t : Fin cfg0.N) (p : Fin 256) :
    sample (iblk m c 0 t) p = sampleOf (m ((c : Thread nD τ).loc main_arg0)) ⟨256 * t.val + p.val, row_lt t p⟩ :=
  funext fun s => funext fun d => iblk0_apply m c t (ix3 p s d) (ix3 ⟨256 * t.val + p.val, row_lt t p⟩ s d) rfl rfl rfl

/-! ## What each point writes back, the cover, and the result array -/

/-- WHAT POINT t WRITES BACK is block t of the batch function of the arguments. -/
theorem flushed_eq (c : Dev nD) (t : Fin cfg0.N) :
    (dats m 0 c).flushed 7 t = ((cfg0.win 7).blk t).view.read (Elt Ideal) (result m c) := by
  rw [Value.flushed7]
  funext y
  obtain ⟨p, j, rfl⟩ : ∃ (p : Fin 256) (j : Fin 100), (y : S256x100.Idx) = ix2 p j := ⟨y 0, y 1, eq_ix2 y⟩
  show out0_7 (iblk m c 0 t) (iblk m c 1 t) (iblk m c 2 t) (iblk m c 3 t) (iblk m c 4 t) (iblk m c 5 t) (iblk m c 6 t) (ix2 p j)
    = result m c (((cfg0.win 7).blk t).view.emb (ix2 p j))
  refine (out_block (iblk m c 0 t) (iblk m c 1 t) (iblk m c 2 t) (iblk m c 3 t) (iblk m c 4 t) (iblk m c 5 t) (iblk m c 6 t) p j).trans ?_
  rw [wts_blocks m c t, sample_block m c t p]
  have he : (((cfg0.win 7).blk t).view.emb (ix2 p j) : S16384x100.Idx) = ix2 (⟨256 * t.val + p.val, row_lt t p⟩ : Fin 16384) j := by
    obtain ⟨-, -, -, -, -, -, -, -, -, -, -, -, -, -, -, h70, h71⟩ := idx_facts t
    funext a
    apply Fin.ext
    match a with
    | ⟨0, _⟩ => show win0_7.index t 0 * 256 + 1 * p.val = 256 * t.val + p.val; rw [h70]; omega
    | ⟨1, _⟩ => show win0_7.index t 1 * 100 + 1 * j.val = j.val; rw [h71]; omega
  rw [he]
  rfl

/-- An index of the result is in point t's block iff each coordinate is in the block's range on its axis. -/
theorem mem_blk (t : Fin cfg0.N) (i : S16384x100.Idx) :
    i ∈ ((cfg0.win 7).blk t).view.set ↔ ∀ a : Fin 2, win0_7.index t a * S256x100.size a ≤ (i a).val ∧ (i a).val < win0_7.index t a * S256x100.size a + S256x100.size a := by
  show i ∈ ((View.whole main_v6).slice (win0_7.rect t)).set ↔ _
  rw [View.set_slice_whole, Rect.mem_set_unit]
  exact Iff.rfl

/-- Every row of the result is in the block of the point its row number divided by 256 names. -/
theorem cover (i : S16384x100.Idx) : ∃ t : Fin cfg0.N, (cfg0.win 7).flush t = true ∧ i ∈ ((cfg0.win 7).blk t).view.set := by
  have hi0 : (i 0).val < 16384 := (i 0).isLt
  have hi1 : (i 1).val < 100 := (i 1).isLt
  have hN : (i 0).val / 256 < cfg0.N := by have e : cfg0.N = 64 := N_0; omega
  obtain ⟨-, -, -, -, -, -, -, -, -, -, -, -, -, -, -, h70, h71⟩ := idx_facts ⟨(i 0).val / 256, hN⟩
  refine ⟨⟨(i 0).val / 256, hN⟩, flush0_7 _, ?_⟩
  rw [mem_blk]
  intro a
  match a with
  | ⟨0, _⟩ =>
    show win0_7.index ⟨(i 0).val / 256, hN⟩ 0 * 256 ≤ (i 0).val ∧ (i 0).val < win0_7.index ⟨(i 0).val / 256, hN⟩ 0 * 256 + 256
    rw [h70]
    show (i 0).val / 256 * 256 ≤ (i 0).val ∧ (i 0).val < (i 0).val / 256 * 256 + 256
    omega
  | ⟨1, _⟩ =>
    show win0_7.index ⟨(i 0).val / 256, hN⟩ 1 * 100 ≤ (i 1).val ∧ (i 1).val < win0_7.index ⟨(i 0).val / 256, hN⟩ 1 * 100 + 100
    rw [h71]
    omega

/-- THE RESULT ARRAY after the run: the batch function of the arguments. -/
theorem final (c : Dev nD) : (dats m 0 c).arrAt 7 cfg0.N = result m c :=
  (dats m 0 c).arrAt_eq_of_cover 7 (result m c) (fun t _ => flushed_eq m c t) cover

/-- The kernel's run, its result named: every weakly fair execution ends with the result array at the batch function
    of the arguments as launched, and the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Batch

end
-- ==== Proof.HostOps.lean ====
/-
  The three neuron operations as the reference spells them on whole arrays of m samples, each read at one entry
  (r, j): the charge (the host's matrix product against the TRANSPOSED weights, the bias vector made a one-row matrix
  and laid along every row, the constant 2 broadcast from a scalar, the host's quotient), the spike (the comparison's
  bit converted directly) and the reset; and the reference's input at time step t (the samples' array [B, T, D]
  transposed to [T, B, D], row t sliced out and reshaped to [B, D]) read at (r, c). Row r is one sample; every entry
  depends on that row alone. At the ideal values; generic in the number of rows and the layer's widths.
-/
import proofs.«112641_j86474871538275_1_alg».proof.Proof.Snn
import Idealize.ShloMosaic.Lib.StackMember
import Idealize.ShloMosaic.Lib.IdealHost
import Idealize.ShloMosaic.Lib.ValueLayout
import Idealize.ShloMosaic.Lib.KernelVsHost

noncomputable section

namespace Cert.Snn.HostOps

open Idealize.ShloMosaic Idealize.ShloMosaic.ValueIdx Cert.Snn

section Layout
variable {α : Type}

/-- A vector of n entries made a one-row matrix by a broadcast along axis 1, read at (0, j): entry j. -/
theorem broadcastInDim_vectorAsRow_apply {n : ℕ} (hd : (⟨1, ![n]⟩ : Shape).BroadcastsInDim ⟨2, ![1, n]⟩ ![1])
    (x : (⟨1, ![n]⟩ : Shape).Idx → α) (u : Fin 1) (j : Fin n) :
    broadcastInDim ⟨2, ![1, n]⟩ ![1] hd x (ix2 u j) = x (ix1 j) := by
  refine broadcastInDim_apply ![1] hd x (ix2 u j) (ix1 j) ?_
  intro a
  match a with
  | ⟨0, _⟩ =>
    show j.val = if n = 1 then 0 else j.val
    split
    · have := j.isLt; omega
    · rfl

/-- The samples at time step o: [B, T, D] transposed to [T, B, D], row o cut out, reshaped to [B, D]; at (r, c) it is
    the array at (r, o, c). -/
theorem stepInput_apply {B T D : ℕ} (X : (⟨3, ![B, T, D]⟩ : Shape).Idx → α) (o : ℕ) (ho : o < T)
    (htr : (⟨3, ![B, T, D]⟩ : Shape).Transposes [1, 0, 2] ⟨3, ![T, B, D]⟩)
    (hsl : (⟨3, ![T, B, D]⟩ : Shape).Slices ![o, 0, 0] ⟨3, ![1, B, D]⟩)
    (hsc : (⟨3, ![1, B, D]⟩ : Shape).ShapeCasts ⟨2, ![B, D]⟩) (r : Fin B) (c : Fin D) :
    shapeCast ⟨2, ![B, D]⟩ (extractStridedSlice ⟨3, ![1, B, D]⟩ ![o, 0, 0] (transpose ⟨3, ![T, B, D]⟩ [1, 0, 2] X htr) hsl) hsc (ix2 r c)
      = X (ix3 r (⟨o, ho⟩ : Fin T) c) := by
  rw [shapeCast_1ab_ab_apply]
  rw [extractStridedSlice_apply ![o, 0, 0] _ hsl (ix3 (0 : Fin 1) r c) (ix3 (⟨o, ho⟩ : Fin T) r c) (by
    intro a; fin_cases a <;> simp [ix3])]
  exact transpose_apply [1, 0, 2] X htr (ix3 (⟨o, ho⟩ : Fin T) r c) (ix3 r (⟨o, ho⟩ : Fin T) c)
    (fun b => match b with | ⟨0, _⟩ => rfl | ⟨1, _⟩ => rfl | ⟨2, _⟩ => rfl)

end Layout

variable {m K J : ℕ}

/-- A layer's charge on m samples as the reference spells it: potential v, inputs lhs, weights W (one row per unit,
    transposed for the product), bias vector b. -/
def chargeH (d : DotDims ⟨2, ![m, K]⟩ ⟨2, ![K, J]⟩ ⟨2, ![m, J]⟩) (v : FVec Ideal ⟨2, ![m, J]⟩ .f32)
    (lhs : FVec Ideal ⟨2, ![m, K]⟩ .f32) (W : FVec Ideal ⟨2, ![J, K]⟩ .f32) (b : FVec Ideal ⟨1, ![J]⟩ .f32)
    (ht : (⟨2, ![J, K]⟩ : Shape).Transposes [1, 0] ⟨2, ![K, J]⟩)
    (hb1 : (⟨1, ![J]⟩ : Shape).BroadcastsInDim ⟨2, ![1, J]⟩ ![1])
    (hb2 : (⟨2, ![1, J]⟩ : Shape).BroadcastsInDim ⟨2, ![m, J]⟩ ![0, 1])
    (hs : (⟨0, ![]⟩ : Shape).BroadcastsInDim ⟨2, ![m, J]⟩ ![]) : FVec Ideal ⟨2, ![m, J]⟩ .f32 :=
  addf v (Host.divf (subf (addf (Host.dotGeneral d none lhs (transpose ⟨2, ![K, J]⟩ [1, 0] W ht))
        (broadcastInDim ⟨2, ![m, J]⟩ ![0, 1] hb2 (broadcastInDim ⟨2, ![1, J]⟩ ![1] hb1 b))) v)
      (broadcastInDim ⟨2, ![m, J]⟩ ![] hs (constant (F := Ideal) ⟨0, ![]⟩ .f32 0x40000000#32)))

/-- At sample r and unit j: the potential there, charged with the dense layer's current for row r of the inputs. -/
theorem chargeH_apply (d : DotDims ⟨2, ![m, K]⟩ ⟨2, ![K, J]⟩ ⟨2, ![m, J]⟩) (hd : d = DotDims.plain m K J)
    (v : FVec Ideal ⟨2, ![m, J]⟩ .f32) (lhs : FVec Ideal ⟨2, ![m, K]⟩ .f32) (W : FVec Ideal ⟨2, ![J, K]⟩ .f32)
    (b : FVec Ideal ⟨1, ![J]⟩ .f32) (ht : (⟨2, ![J, K]⟩ : Shape).Transposes [1, 0] ⟨2, ![K, J]⟩)
    (hb1 : (⟨1, ![J]⟩ : Shape).BroadcastsInDim ⟨2, ![1, J]⟩ ![1])
    (hb2 : (⟨2, ![1, J]⟩ : Shape).BroadcastsInDim ⟨2, ![m, J]⟩ ![0, 1])
    (hs : (⟨0, ![]⟩ : Shape).BroadcastsInDim ⟨2, ![m, J]⟩ ![]) (r : Fin m) (j : Fin J) :
    chargeH d v lhs W b ht hb1 hb2 hs (ix2 r j)
      = charge (v (ix2 r j)) (dense (fun c => lhs (ix2 r c)) (fun j c => W (ix2 j c)) (fun j => b (ix1 j)) j) := by
  subst hd
  show v (ix2 r j) + Ideal.div ((Host.dotGeneral (DotDims.plain m K J) none lhs (transpose ⟨2, ![K, J]⟩ [1, 0] W ht) (ix2 r j)
      + broadcastInDim ⟨2, ![m, J]⟩ ![0, 1] hb2 (broadcastInDim ⟨2, ![1, J]⟩ ![1] hb1 b) (ix2 r j)) - v (ix2 r j))
      (broadcastInDim ⟨2, ![m, J]⟩ ![] hs (constant (F := Ideal) ⟨0, ![]⟩ .f32 0x40000000#32) (ix2 r j)) = _
  rw [StackMember.dotGeneral_plain_apply, broadcastInDim_oneRow_apply, broadcastInDim_vectorAsRow_apply,
    broadcastInDim_scalar_apply]
  have e : ∀ c : Fin K, transpose ⟨2, ![K, J]⟩ [1, 0] W ht (ix2 c j) = W (ix2 j c) := fun c => transpose_ix2_apply W ht c j
  rw [Finset.sum_congr rfl fun c _ => by rw [e c]]
  rfl

/-- The same from what the operands are on row r (and what the weights and the bias are). -/
theorem chargeH_of (d : DotDims ⟨2, ![m, K]⟩ ⟨2, ![K, J]⟩ ⟨2, ![m, J]⟩) (hd : d = DotDims.plain m K J)
    (v : FVec Ideal ⟨2, ![m, J]⟩ .f32) (lhs : FVec Ideal ⟨2, ![m, K]⟩ .f32) (W : FVec Ideal ⟨2, ![J, K]⟩ .f32)
    (b : FVec Ideal ⟨1, ![J]⟩ .f32) (ht : (⟨2, ![J, K]⟩ : Shape).Transposes [1, 0] ⟨2, ![K, J]⟩)
    (hb1 : (⟨1, ![J]⟩ : Shape).BroadcastsInDim ⟨2, ![1, J]⟩ ![1])
    (hb2 : (⟨2, ![1, J]⟩ : Shape).BroadcastsInDim ⟨2, ![m, J]⟩ ![0, 1])
    (hs : (⟨0, ![]⟩ : Shape).BroadcastsInDim ⟨2, ![m, J]⟩ ![]) (r : Fin m) (j : Fin J)
    {V : EReal} {X : Fin K → EReal} {Wt : Fin J → Fin K → EReal} {B : Fin J → EReal}
    (hv : v (ix2 r j) = V) (hl : ∀ c, lhs (ix2 r c) = X c) (hW : ∀ j c, W (ix2 j c) = Wt j c) (hB : ∀ j, b (ix1 j) = B j) :
    chargeH d v lhs W b ht hb1 hb2 hs (ix2 r j) = charge V (dense X Wt B j) := by
  have e1 : (fun c => lhs (ix2 r c)) = X := funext hl
  have e2 : (fun j c => W (ix2 j c)) = Wt := funext fun j => funext (hW j)
  have e3 : (fun j => b (ix1 j)) = B := funext hB
  rw [chargeH_apply d hd, hv, e1, e2, e3]

variable {s : Shape}

/-- The spikes of charged potentials: the host converts the bit of "u − 1 ≥ 0" directly. -/
def fireH (u : FVec Ideal s .f32) (h1 h0 : (⟨0, ![]⟩ : Shape).BroadcastsInDim s ![]) : FVec Ideal s .f32 :=
  uitofp .f32 (cmpf .oge (subf u (broadcastInDim s ![] h1 (constant (F := Ideal) ⟨0, ![]⟩ .f32 0x3F800000#32)))
    (broadcastInDim s ![] h0 (constant (F := Ideal) ⟨0, ![]⟩ .f32 0x00000000#32)))

/-- The potentials after the reset. -/
def resetH (u : FVec Ideal s .f32) (h1 h1' h0 : (⟨0, ![]⟩ : Shape).BroadcastsInDim s ![]) : FVec Ideal s .f32 :=
  mulf u (subf (broadcastInDim s ![] h1 (constant (F := Ideal) ⟨0, ![]⟩ .f32 0x3F800000#32)) (fireH u h1' h0))

/-- The spike at an entry, from the potential there. -/
theorem fireH_of (u : FVec Ideal s .f32) (h1 h0 : (⟨0, ![]⟩ : Shape).BroadcastsInDim s ![]) (i : s.Idx) {U : EReal}
    (h : u i = U) : fireH u h1 h0 i = fire U := by
  show (((Ideal.cmp .oge (u i - broadcastInDim s ![] h1 (constant (F := Ideal) ⟨0, ![]⟩ .f32 0x3F800000#32) i)
      (broadcastInDim s ![] h0 (constant (F := Ideal) ⟨0, ![]⟩ .f32 0x00000000#32) i)).toNat : ℝ) : EReal) = _
  rw [broadcastInDim_scalar_apply, broadcastInDim_scalar_apply, h]
  rfl

/-- The reset potential at an entry, from the potential there. -/
theorem resetH_of (u : FVec Ideal s .f32) (h1 h1' h0 : (⟨0, ![]⟩ : Shape).BroadcastsInDim s ![]) (i : s.Idx) {U : EReal}
    (h : u i = U) : resetH u h1 h1' h0 i = reset U := by
  show u i * (broadcastInDim s ![] h1 (constant (F := Ideal) ⟨0, ![]⟩ .f32 0x3F800000#32) i - fireH u h1' h0 i) = _
  rw [broadcastInDim_scalar_apply, fireH_of u h1' h0 i h, h]
  rfl

/-- A potential that starts at zero: the scalar 0 broadcast to the layer's shape, at an entry. -/
theorem zeros_apply (h0 : (⟨0, ![]⟩ : Shape).BroadcastsInDim s ![]) (i : s.Idx) :
    (broadcastInDim s ![] h0 (constant (F := Ideal) ⟨0, ![]⟩ .f32 0x00000000#32) : FVec Ideal s .f32) i = zero := by
  rw [broadcastInDim_scalar_apply]
  rfl

end Cert.Snn.HostOps

end
-- ==== Proof.RefValue.lean ====
/-
  What the reference computes, array by array: each named intermediate array of its run is one of the network's
  quantities (Snn.lean) for all 16384 samples at once — a layer's charged potentials, its spikes, or its potentials
  after the reset — and, read at row r, that quantity for sample r: a matrix product's row r uses row r of its left
  operand only, and everything else is entrywise. One lemma per named array, in the run's order; then the result array
  as the batch function of the arguments, and the run re-posted with it.
-/
import proofs.«112641_j86474871538275_1_alg».proof.Proof.Gen.ReferenceIdeal.Run
import proofs.«112641_j86474871538275_1_alg».proof.Proof.HostOps
import proofs.«112641_j86474871538275_1_alg».proof.Proof.SnnBatch

noncomputable section

namespace Cert.ReferenceIdeal.RefValue

open Idealize.ShloMosaic Idealize.ShloMosaic.TcCoe Idealize.ShloMosaic.ValueIdx Idealize.ShloMosaic.StableHlo Idealize.SL.Sem
open Cert.ReferenceIdeal Cert.ReferenceIdeal.Gen Cert.ReferenceIdeal.Value Cert.Snn Cert.Snn.HostOps

variable (V0 : Valuation τ sig (Elt Ideal))

/-- The network's parameters as the reference's arguments hold them. -/
abbrev P : Weights :=
  wtsOf (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))

/-- Sample r of the reference's input argument. -/
abbrev xs (r : Fin 16384) : Fin 3 → Fin 2752 → EReal := sampleOf (V0 (Proc.devRef .tc main_arg0)) r

variable (r : Fin 16384)

/-! ## Step 0 -/

/-- Layer 1 charged from rest. -/
theorem v14_of (j : Fin 256) : (res_main_v14 V0 : FVec Ideal S16384x256 .f32) (ix2 r j) = u1a (P V0) (xs V0 r) j := by
  show chargeH dot_S16384x2752_S2752x256_S16384x256_1_0_0_1_n_n (res_main_v1 V0) (shapeCast S16384x2752 (extractStridedSlice S1x16384x2752 ![0, 0, 0] (res_main_v0 V0) _) _) (V0 (Proc.devRef .tc main_arg1)) (V0 (Proc.devRef .tc main_arg2)) _ _ _ _ (ix2 r j) = _
  exact chargeH_of _ rfl _ _ _ _ _ _ _ _ r j (zeros_apply _ _) (fun c => stepInput_apply _ 0 (by decide) _ _ _ r c) (fun _ _ => rfl) (fun _ => rfl)

/-- Layer 1's spikes. -/
theorem v19_of (j : Fin 256) : (res_main_v19 V0 : FVec Ideal S16384x256 .f32) (ix2 r j) = s1a (P V0) (xs V0 r) j := by
  show fireH (res_main_v14 V0) _ _ (ix2 r j) = _
  exact fireH_of _ _ _ _ (v14_of V0 r j)

/-- Layer 1 after the reset. -/
theorem v22_of (j : Fin 256) : (res_main_v22 V0 : FVec Ideal S16384x256 .f32) (ix2 r j) = v1a (P V0) (xs V0 r) j := by
  show resetH (res_main_v14 V0) _ _ _ (ix2 r j) = _
  exact resetH_of _ _ _ _ _ (v14_of V0 r j)

/-- Layer 2 charged from rest by layer 1's spikes. -/
theorem v31_of (j : Fin 256) : (res_main_v31 V0 : FVec Ideal S16384x256 .f32) (ix2 r j) = u2a (P V0) (xs V0 r) j := by
  show chargeH dot_S16384x256_S256x256_S16384x256_1_0_0_1_n_n (res_main_v2 V0) (res_main_v19 V0) (V0 (Proc.devRef .tc main_arg3)) (V0 (Proc.devRef .tc main_arg4)) _ _ _ _ (ix2 r j) = _
  exact chargeH_of _ rfl _ _ _ _ _ _ _ _ r j (zeros_apply _ _) (v19_of V0 r) (fun _ _ => rfl) (fun _ => rfl)

/-- Layer 2's spikes. -/
theorem v36_of (j : Fin 256) : (res_main_v36 V0 : FVec Ideal S16384x256 .f32) (ix2 r j) = s2a (P V0) (xs V0 r) j := by
  show fireH (res_main_v31 V0) _ _ (ix2 r j) = _
  exact fireH_of _ _ _ _ (v31_of V0 r j)

/-- Layer 2 after the reset. -/
theorem v39_of (j : Fin 256) : (res_main_v39 V0 : FVec Ideal S16384x256 .f32) (ix2 r j) = v2a (P V0) (xs V0 r) j := by
  show resetH (res_main_v31 V0) _ _ _ (ix2 r j) = _
  exact resetH_of _ _ _ _ _ (v31_of V0 r j)

/-- Layer 3 charged from rest by layer 2's spikes. -/
theorem v48_of (j : Fin 100) : (res_main_v48 V0 : FVec Ideal S16384x100 .f32) (ix2 r j) = u3a (P V0) (xs V0 r) j := by
  show chargeH dot_S16384x256_S256x100_S16384x100_1_0_0_1_n_n (res_main_v3 V0) (res_main_v36 V0) (V0 (Proc.devRef .tc main_arg5)) (V0 (Proc.devRef .tc main_arg6)) _ _ _ _ (ix2 r j) = _
  exact chargeH_of _ rfl _ _ _ _ _ _ _ _ r j (zeros_apply _ _) (v36_of V0 r) (fun _ _ => rfl) (fun _ => rfl)

/-- Layer 3 after the reset. -/
theorem v56_of (j : Fin 100) : (res_main_v56 V0 : FVec Ideal S16384x100 .f32) (ix2 r j) = v3a (P V0) (xs V0 r) j := by
  show resetH (res_main_v48 V0) _ _ _ (ix2 r j) = _
  exact resetH_of _ _ _ _ _ (v48_of V0 r j)

/-! ## Step 1 -/

/-- Layer 1 charged from what step 0 left. -/
theorem v67_of (j : Fin 256) : (res_main_v67 V0 : FVec Ideal S16384x256 .f32) (ix2 r j) = u1b (P V0) (xs V0 r) j := by
  show chargeH dot_S16384x2752_S2752x256_S16384x256_1_0_0_1_n_n (res_main_v22 V0) (shapeCast S16384x2752 (extractStridedSlice S1x16384x2752 ![1, 0, 0] (res_main_v0 V0) _) _) (V0 (Proc.devRef .tc main_arg1)) (V0 (Proc.devRef .tc main_arg2)) _ _ _ _ (ix2 r j) = _
  exact chargeH_of _ rfl _ _ _ _ _ _ _ _ r j (v22_of V0 r j) (fun c => stepInput_apply _ 1 (by decide) _ _ _ r c) (fun _ _ => rfl) (fun _ => rfl)

/-- Layer 1's spikes. -/
theorem v72_of (j : Fin 256) : (res_main_v72 V0 : FVec Ideal S16384x256 .f32) (ix2 r j) = s1b (P V0) (xs V0 r) j := by
  show fireH (res_main_v67 V0) _ _ (ix2 r j) = _
  exact fireH_of _ _ _ _ (v67_of V0 r j)

/-- Layer 1 after the reset. -/
theorem v75_of (j : Fin 256) : (res_main_v75 V0 : FVec Ideal S16384x256 .f32) (ix2 r j) = v1b (P V0) (xs V0 r) j := by
  show resetH (res_main_v67 V0) _ _ _ (ix2 r j) = _
  exact resetH_of _ _ _ _ _ (v67_of V0 r j)

/-- Layer 2 charged from what step 0 left. -/
theorem v84_of (j : Fin 256) : (res_main_v84 V0 : FVec Ideal S16384x256 .f32) (ix2 r j) = u2b (P V0) (xs V0 r) j := by
  show chargeH dot_S16384x256_S256x256_S16384x256_1_0_0_1_n_n (res_main_v39 V0) (res_main_v72 V0) (V0 (Proc.devRef .tc main_arg3)) (V0 (Proc.devRef .tc main_arg4)) _ _ _ _ (ix2 r j) = _
  exact chargeH_of _ rfl _ _ _ _ _ _ _ _ r j (v39_of V0 r j) (v72_of V0 r) (fun _ _ => rfl) (fun _ => rfl)

/-- Layer 2's spikes. -/
theorem v89_of (j : Fin 256) : (res_main_v89 V0 : FVec Ideal S16384x256 .f32) (ix2 r j) = s2b (P V0) (xs V0 r) j := by
  show fireH (res_main_v84 V0) _ _ (ix2 r j) = _
  exact fireH_of _ _ _ _ (v84_of V0 r j)

/-- Layer 2 after the reset. -/
theorem v92_of (j : Fin 256) : (res_main_v92 V0 : FVec Ideal S16384x256 .f32) (ix2 r j) = v2b (P V0) (xs V0 r) j := by
  show resetH (res_main_v84 V0) _ _ _ (ix2 r j) = _
  exact resetH_of _ _ _ _ _ (v84_of V0 r j)

/-- Layer 3 charged from what step 0 left. -/
theorem v101_of (j : Fin 100) : (res_main_v101 V0 : FVec Ideal S16384x100 .f32) (ix2 r j) = u3b (P V0) (xs V0 r) j := by
  show chargeH dot_S16384x256_S256x100_S16384x100_1_0_0_1_n_n (res_main_v56 V0) (res_main_v89 V0) (V0 (Proc.devRef .tc main_arg5)) (V0 (Proc.devRef .tc main_arg6)) _ _ _ _ (ix2 r j) = _
  exact chargeH_of _ rfl _ _ _ _ _ _ _ _ r j (v56_of V0 r j) (v89_of V0 r) (fun _ _ => rfl) (fun _ => rfl)

/-- Layer 3 after the reset. -/
theorem v109_of (j : Fin 100) : (res_main_v109 V0 : FVec Ideal S16384x100 .f32) (ix2 r j) = v3b (P V0) (xs V0 r) j := by
  show resetH (res_main_v101 V0) _ _ _ (ix2 r j) = _
  exact resetH_of _ _ _ _ _ (v101_of V0 r j)

/-! ## Step 2 -/

/-- Layer 1 charged from what step 1 left. -/
theorem v120_of (j : Fin 256) : (res_main_v120 V0 : FVec Ideal S16384x256 .f32) (ix2 r j) = u1c (P V0) (xs V0 r) j := by
  show chargeH dot_S16384x2752_S2752x256_S16384x256_1_0_0_1_n_n (res_main_v75 V0) (shapeCast S16384x2752 (extractStridedSlice S1x16384x2752 ![2, 0, 0] (res_main_v0 V0) _) _) (V0 (Proc.devRef .tc main_arg1)) (V0 (Proc.devRef .tc main_arg2)) _ _ _ _ (ix2 r j) = _
  exact chargeH_of _ rfl _ _ _ _ _ _ _ _ r j (v75_of V0 r j) (fun c => stepInput_apply _ 2 (by decide) _ _ _ r c) (fun _ _ => rfl) (fun _ => rfl)

/-- Layer 1's spikes. -/
theorem v125_of (j : Fin 256) : (res_main_v125 V0 : FVec Ideal S16384x256 .f32) (ix2 r j) = s1c (P V0) (xs V0 r) j := by
  show fireH (res_main_v120 V0) _ _ (ix2 r j) = _
  exact fireH_of _ _ _ _ (v120_of V0 r j)

/-- Layer 2 charged from what step 1 left. -/
theorem v137_of (j : Fin 256) : (res_main_v137 V0 : FVec Ideal S16384x256 .f32) (ix2 r j) = u2c (P V0) (xs V0 r) j := by
  show chargeH dot_S16384x256_S256x256_S16384x256_1_0_0_1_n_n (res_main_v92 V0) (res_main_v125 V0) (V0 (Proc.devRef .tc main_arg3)) (V0 (Proc.devRef .tc main_arg4)) _ _ _ _ (ix2 r j) = _
  exact chargeH_of _ rfl _ _ _ _ _ _ _ _ r j (v92_of V0 r j) (v125_of V0 r) (fun _ _ => rfl) (fun _ => rfl)

/-- Layer 2's spikes. -/
theorem v142_of (j : Fin 256) : (res_main_v142 V0 : FVec Ideal S16384x256 .f32) (ix2 r j) = s2c (P V0) (xs V0 r) j := by
  show fireH (res_main_v137 V0) _ _ (ix2 r j) = _
  exact fireH_of _ _ _ _ (v137_of V0 r j)

/-- Layer 3 charged from what step 1 left. -/
theorem v154_of (j : Fin 100) : (res_main_v154 V0 : FVec Ideal S16384x100 .f32) (ix2 r j) = u3c (P V0) (xs V0 r) j := by
  show chargeH dot_S16384x256_S256x100_S16384x100_1_0_0_1_n_n (res_main_v109 V0) (res_main_v142 V0) (V0 (Proc.devRef .tc main_arg5)) (V0 (Proc.devRef .tc main_arg6)) _ _ _ _ (ix2 r j) = _
  exact chargeH_of _ rfl _ _ _ _ _ _ _ _ r j (v109_of V0 r j) (v142_of V0 r) (fun _ _ => rfl) (fun _ => rfl)

/-- THE RESULT ARRAY: layer 3's spikes at the last step, for every sample — the batch function of the arguments. -/
theorem result_eq :
    (uitofp .f32 (cmpf .oge (subf (res_main_v154 V0) (broadcastInDim S16384x100 ![] Facts₀.bcast_S_S16384x100 (constant (F := Ideal) S_ .f32 0x3F800000#32)))
        (broadcastInDim S16384x100 ![] Facts₀.bcast_S_S16384x100 (constant (F := Ideal) S_ .f32 0x00000000#32))) : FVec Ideal S16384x100 .f32)
      = batch (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) := by
  funext i
  obtain ⟨r, j, rfl⟩ : ∃ (r : Fin 16384) (j : Fin 100), i = ix2 r j := ⟨i 0, i 1, eq_ix2 i⟩
  show fireH (res_main_v154 V0) _ _ (ix2 r j) = _
  exact fireH_of _ _ _ _ (v154_of V0 r j)

/-- The reference's run, its result named: every weakly fair execution ends with the result array at the batch
    function of the arguments as launched, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v159)
        = batch (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (result_eq (launchContents m c)), (h c).2⟩)
    (Cert.ReferenceIdeal.Value.run (F := Ideal) m ρ)

end Cert.ReferenceIdeal.RefValue

end
-- ==== Proof.lean ====
/-
  The certificate of a three-layer spiking network's kernel against its reference, over the extended reals.

  Both programs run the same network (Proof/Snn.lean) on 16384 samples: three dense layers of leaky
  integrate-and-fire neurons, three time steps, the result layer 3's spikes at the last step. The kernel works on blocks
  of 256 samples with the weights narrowed to a smaller float format (the identity at the ideal values) and multiplies
  against the weights' rows; the reference works on all samples at once and multiplies against the transposed weights.
  Entry (r, j) of either result depends on sample r alone and is output unit j of the network for that sample
  (Proof/KernelBlock.lean and Proof/KernelArray.lean for the kernel, Proof/RefValue.lean for the reference), so both
  result arrays are one function of the arguments (Proof/SnnBatch.lean). The two sides spell the same sums in the same
  order, so no law of arithmetic is needed beyond 0 + x = x for the matrix products' zero accumulator, and the inputs'
  finiteness is never used.

  The frames of the two kernel programs are the generated ones; the reference's frame is its generated run with the
  result dropped; the idealization rewrote nothing, so its ledger is empty.
-/
import proofs.«112641_j86474871538275_1_alg».proof.Defs
import proofs.«112641_j86474871538275_1_alg».proof.Proof.Gen.Kernel
import proofs.«112641_j86474871538275_1_alg».proof.Proof.Gen.Kernel.Skeleton
import proofs.«112641_j86474871538275_1_alg».proof.Proof.Gen.Kernel.Launch
import proofs.«112641_j86474871538275_1_alg».proof.Proof.Gen.Kernel.Points
import proofs.«112641_j86474871538275_1_alg».proof.Proof.Gen.Kernel.Frame
import proofs.«112641_j86474871538275_1_alg».proof.Proof.Gen.KernelIdeal
import proofs.«112641_j86474871538275_1_alg».proof.Proof.Gen.KernelIdeal.Skeleton
import proofs.«112641_j86474871538275_1_alg».proof.Proof.Gen.KernelIdeal.Launch
import proofs.«112641_j86474871538275_1_alg».proof.Proof.Gen.KernelIdeal.Points
import proofs.«112641_j86474871538275_1_alg».proof.Proof.Gen.KernelIdeal.Frame
import proofs.«112641_j86474871538275_1_alg».proof.Proof.Gen.ReferenceIdeal
import proofs.«112641_j86474871538275_1_alg».proof.Proof.Gen.Pre_finite_inputs
import proofs.«112641_j86474871538275_1_alg».proof.Proof.Gen.KernelIdeal.Value
import proofs.«112641_j86474871538275_1_alg».proof.Proof.Gen.ReferenceIdeal.Run
import proofs.«112641_j86474871538275_1_alg».proof.Proof.KernelArray
import proofs.«112641_j86474871538275_1_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments as they were: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments, both programs end with the result array at the batch function of the
    arguments: the kernel's by its blocks, the reference's by its run, rewritten along the agreement. -/
theorem algebraic : Cert.algebraic_KernelIdeal_ReferenceIdeal := by
  intro m ρ m' ρ' _ hagree
  refine ⟨fun c => Cert.KernelIdeal.Batch.result m c, Cert.KernelIdeal.Batch.run m ρ, ?_⟩
  refine (θ_run Cert.ReferenceIdeal.defs _ _).mono (fun _ h c => ⟨(h c).1.trans ?_, (h c).2⟩)
    (Cert.ReferenceIdeal.RefValue.run m' ρ')
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
